-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x1024x1 : Shape := ⟨3, ![1, 1024, 1]⟩
abbrev S1x1x8192 : Shape := ⟨3, ![1, 1, 8192]⟩
abbrev S1024x3 : Shape := ⟨2, ![1024, 3]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S8192 : Shape := ⟨1, ![8192]⟩
abbrev S1x1x1024 : Shape := ⟨3, ![1, 1, 1024]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x1x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v33 : BitVec 32 := Scalar.muli arg2 c1024_i32
  let v34 : BitVec 32 := v33
  let v36 : Index := Scalar.indexCast v34
  ![0, 0, v36.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024x1_S1x1024 : S1024x1.ShapeCasts S1x1024
  broadcasts_S1024x1_S1024x1024 : S1024x1.Broadcasts S1024x1024
  broadcasts_S1x1024_S1024x1024 : S1x1024.Broadcasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024 : S1x1024x1.ShapeCasts S1024
  shapeCasts_S1024_S1x1024x1 : S1024.ShapeCasts S1x1024x1
  reduces_S1024x1024_S1024 : S1024x1024.Reduces [1] S1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  reduces_S1024x1024_S1024_2 : S1024x1024.Reduces [0] S1024
  h_S1x1x1024 : 0 < S1x1x1024.numel
  shapeCasts_S1x1x1024_S1024 : S1x1x1024.ShapeCasts S1024
  shapeCasts_S1024_S1x1x1024 : S1024.ShapeCasts S1x1x1024
  reducesTo_S4x1x8192_S_d0_1_2 : S4x1x8192.ReducesTo [0, 1, 2] S_
  h_S_ : 0 < S_.numel
  reducesTo_S4x8192x1_S_d0_1_2 : S4x8192x1.ReducesTo [0, 1, 2] S_
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192_S_d0_1 : S4x8192.ReducesTo [0, 1] S_
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.StepsK.lean ====
/-
  What one grid point does to the two running minima, as pure functions of the point's two input blocks and of what
  the buffers held before, and what the buffers hold after every point of the sweep.
  The row buffer (1024 entries, one per point of the X tile) is reset to +infinity when a new row of tiles starts
  (column-tile coordinate 0) and then takes, entry by entry, the smaller of what it held and the least distance of
  the tile's row.  The column buffer (8192 entries, one per point of Y in the batch) is reset to +infinity when a new
  batch starts (both tile coordinates 0); only the 1024 entries of the current column tile change at a point: each
  takes the smaller of what it held and the least distance of the tile's column.
-/
import proofs.«141924_j17781164606273_1_alg».proof.Proof.Gen.Kernel.Skeleton
import proofs.«141924_j17781164606273_1_alg».proof.Proof.Gen.Kernel.Frame
import Idealize.ShloMosaic.Lib.WritesUnit

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The row buffer at a reset: +infinity everywhere. -/
abbrev rowInit : Vec F S1x1024x1 .f32 := k0_pay4 (F := F)

/-- The column buffer at a reset: +infinity everywhere. -/
abbrev colInit : Vec F S1x1x8192 .f32 := k0_pay1 (F := F)

/-- The row buffer after a point: entry by entry the smaller of what it held and the tile's row minimum. -/
abbrev rowStep (x0 x1 : Vec F S1x1024x3 .f32) (prev : Vec F S1x1024x1 .f32) : Vec F S1x1024x1 .f32 :=
  k0_pay5 x0 x1 prev

/-- The rectangle of the column buffer a point at grid coordinates `i` updates: the 1024 entries of its column tile. -/
abbrev colRect (i : grid0.Coords) : Rect S1x1x8192 := Rect.unit (s := S1x1x8192) (k0_off1 i) S1x1x1024.size (Facts₀.k0_off1_inb i)

/-- The column buffer after a point: inside the point's column tile the smaller of what it held and the tile's column
    minimum, outside it unchanged. -/
def colStep (i : grid0.Coords) (x0 x1 : Vec F S1x1024x3 .f32) (prev : Vec F S1x1x8192 .f32) : Vec F S1x1x8192 .f32 :=
  fun y =>
    if h : ∀ a, k0_off1 i a ≤ (y a).val ∧ (y a).val < k0_off1 i a + S1x1x1024.size a then
      k0_pay2 (k0_pay3 x0 x1) (View.ld prev (colRect i)) (Rect.unitLocal (s := S1x1x8192) (off := k0_off1 i) (size := S1x1x1024.size) y h)
    else prev y

variable (m : (ℓ : Loc nD τ sig) → Buf (Elt F) ℓ)

/-- What the row buffer and the column buffer hold after the body at position `n` of the sweep. -/
def outsAt (c : Dev nD) : (n : ℕ) → n < cfg0.N → Vec F S1x1024x1 .f32 × Vec F S1x1x8192 .f32
  | 0, hn =>
    (rowStep (iblk m c 0 ⟨0, hn⟩) (iblk m c 1 ⟨0, hn⟩) rowInit,
     colStep (grid0.coords ⟨0, hn⟩) (iblk m c 0 ⟨0, hn⟩) (iblk m c 1 ⟨0, hn⟩) colInit)
  | n + 1, hn =>
    (rowStep (iblk m c 0 ⟨n + 1, hn⟩) (iblk m c 1 ⟨n + 1, hn⟩)
        (if (n + 1) % 8 = 0 then rowInit else (outsAt c n (Nat.lt_of_succ_lt hn)).1),
     colStep (grid0.coords ⟨n + 1, hn⟩) (iblk m c 0 ⟨n + 1, hn⟩) (iblk m c 1 ⟨n + 1, hn⟩)
        (if (n + 1) % 64 = 0 then colInit else (outsAt c n (Nat.lt_of_succ_lt hn)).2))

/-- The row buffer after a point that starts a row of tiles. -/
theorem outsAt_row_reset (c : Dev nD) (t : Fin cfg0.N) (h : t.val % 8 = 0) :
    (outsAt m c t.val t.isLt).1 = rowStep (iblk m c 0 t) (iblk m c 1 t) rowInit := by
  obtain ⟨n, hn⟩ := t
  cases n with
  | zero => rfl
  | succ n => show rowStep _ _ (if (n + 1) % 8 = 0 then _ else _) = _; rw [if_pos h]

/-- The row buffer after any other point: a step over what the point before left. -/
theorem outsAt_row_step (c : Dev nD) (t : Fin cfg0.N) (h : ¬t.val % 8 = 0) :
    (outsAt m c t.val t.isLt).1
      = rowStep (iblk m c 0 t) (iblk m c 1 t) (outsAt m c (t.val - 1) (Nat.lt_of_le_of_lt (Nat.sub_le _ _) t.isLt)).1 := by
  obtain ⟨n, hn⟩ := t
  cases n with
  | zero => exact absurd (Nat.zero_mod _) h
  | succ n => show rowStep _ _ (if (n + 1) % 8 = 0 then _ else _) = _; rw [if_neg h]; rfl

/-- The column buffer after a point that starts a batch. -/
theorem outsAt_col_reset (c : Dev nD) (t : Fin cfg0.N) (h : t.val % 64 = 0) :
    (outsAt m c t.val t.isLt).2 = colStep (grid0.coords t) (iblk m c 0 t) (iblk m c 1 t) colInit := by
  obtain ⟨n, hn⟩ := t
  cases n with
  | zero => rfl
  | succ n => show colStep _ _ _ (if (n + 1) % 64 = 0 then _ else _) = _; rw [if_pos h]

/-- The column buffer after any other point: a step over what the point before left. -/
theorem outsAt_col_step (c : Dev nD) (t : Fin cfg0.N) (h : ¬t.val % 64 = 0) :
    (outsAt m c t.val t.isLt).2
      = colStep (grid0.coords t) (iblk m c 0 t) (iblk m c 1 t) (outsAt m c (t.val - 1) (Nat.lt_of_le_of_lt (Nat.sub_le _ _) t.isLt)).2 := by
  obtain ⟨n, hn⟩ := t
  cases n with
  | zero => exact absurd (Nat.zero_mod _) h
  | succ n => show colStep _ _ _ (if (n + 1) % 64 = 0 then _ else _) = _; rw [if_neg h]; rfl

end Cert.Kernel.Hand

end
-- ==== Proof.RunsK.lean ====
/-
  One grid point of the sweep, run on whole staging buffers: the two input blocks are only read, and the two output
  buffers end at the step functions of what they held.  Three cases of the two conditionals meet the grid: a point
  that starts a batch resets both running minima before it updates them; a point that starts a row of tiles inside a
  batch resets the row minimum only; any other point updates both.  A whole-buffer store that comes last decides
  the row buffer; the column buffer is decided entry by entry: inside the point's column tile the last store, outside
  it the earlier contents.
-/
import proofs.«141924_j17781164606273_1_alg».proof.Proof.StepsK
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional of the body: the column-tile coordinate is 0. -/
abbrev cond0_0 (i : grid0.Coords) : Prop := (Scalar.cmpi .ne (Scalar.extui (Scalar.cmpi .eq (BitVec.ofNat 32 (i 2).val) 0#32)) 0#32) = 1#1
/-- It holds exactly at the points that start a row of tiles. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body: both tile coordinates are 0. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that start a batch. -/
theorem hcond0_1 : ∀ t : Fin cfg0.N, cond0_1 (grid0.coords t) ↔ t.val % 64 = 0 :=
  (by decide +kernel : ∀ t : Fin grid0.N, cond0_1 (grid0.coords t) ↔ t.val % 64 = 0)

/-- Each window's current staging memref at point `t`, as the pipeline passes it to the body. -/
abbrev ms0_0 (t : Fin cfg0.N) : Memref sig .tc .vmem S1x1024x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S1x1024x3 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S1x1024x1 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S1x1x8192 .f32 := win0_3.stage (cfg0.slots t 3)
abbrev hs0_3 (t : Fin cfg0.N) : (ms0_3 t).IsWhole := Facts₀.hstage0_3 ((cfg0.slots t 3).cast Facts₀.nbuf0_3)

/-- The zero offsets of a whole-buffer access, however they are spelt. -/
theorem hz3 : (![0, 0, 0] : Fin 3 → ℕ) = fun _ => 0 := by funext a; fin_cases a <;> rfl

/-- The row buffer read back after a whole-buffer store that came last: the store's payload. -/
theorem read_row_whole {arg5 : Memref sig .tc .vmem S1x1024x1 .f32} (f : arg5.view.ty.Contents (Elt F))
    (inb : ∀ a, (![0, 0, 0] : Fin 3 → ℕ) a + S1x1024x1.size a ≤ S1x1024x1.size a)
    (w : S1x1024x1.Idx → Elt F .f32) (L : List (View.Piece (Elt F) S1x1024x1 .f32)) :
    arg5.view.read (Elt F) (arg5.view.writes (Elt F) f ((⟨Rect.unit (s := S1x1024x1) ![0, 0, 0] S1x1024x1.size inb, w⟩ : View.Piece (Elt F) S1x1024x1 .f32) :: L)) = w := by
  rw [View.read_writes_eq_canon _ _ _ (fun y => ⟨_, List.mem_cons_self, View.mem_set_unit_zero hz3 inb y⟩)]
  exact View.canon_cons_unit_zero hz3 _ _ _

/-- The column buffer read back after a store into the point's column tile that came last: inside the tile the store's
    payload, outside it what the earlier contents read. -/
theorem read_col_slice {arg6 : Memref sig .tc .vmem S1x1x8192 .f32} (f : arg6.view.ty.Contents (Elt F)) (i : grid0.Coords)
    (inb : ∀ a, k0_off1 i a + S1x1x1024.size a ≤ S1x1x8192.size a)
    (w : S1x1x1024.Idx → Elt F .f32) (L : List (View.Piece (Elt F) S1x1x8192 .f32)) (y : S1x1x8192.Idx) :
    arg6.view.read (Elt F) (arg6.view.writes (Elt F) f ((⟨Rect.unit (s := S1x1x8192) (k0_off1 i) S1x1x1024.size inb, w⟩ : View.Piece (Elt F) S1x1x8192 .f32) :: L)) y
      = if h : ∀ a, k0_off1 i a ≤ (y a).val ∧ (y a).val < k0_off1 i a + S1x1x1024.size a then
          w (Rect.unitLocal (s := S1x1x8192) (off := k0_off1 i) (size := S1x1x1024.size) y h)
        else arg6.view.read (Elt F) (arg6.view.writes (Elt F) f L) y :=
  View.read_writes_cons_unit arg6.view f inb w L y rfl

set_option maxHeartbeats 1000000 in
/-- The body at a point that starts a batch (both conditionals taken): whatever the two output buffers held, the row buffer ends at one step over the reset value and so does the column buffer. -/
theorem kernelRun_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : cond0_0 i) (hc1 : cond0_1 i)
    (x0 : Vec F S1x1024x3 .f32) (x1 : Vec F S1x1024x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowStep x0 x1 rowInit) ∗ owns (c : Thread nD τ) arg6 fullShare (colStep i x0 x1 colInit)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

set_option maxHeartbeats 1000000 in
/-- The body at a point that starts a row of tiles inside a batch (only the first conditional taken): whatever the row buffer held it ends at one step over the reset value; the column buffer, found at `xo3`, ends at one step over `xo3`. -/
theorem kernelRun_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : cond0_0 i) (hc1 : ¬cond0_1 i)
    (x0 : Vec F S1x1024x3 .f32) (x1 : Vec F S1x1024x3 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowStep x0 x1 rowInit) ∗ owns (c : Thread nD τ) arg6 fullShare (colStep i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

set_option maxHeartbeats 1000000 in
/-- The body at any other point (no conditional taken): both buffers, found at `xo2` and `xo3`, end at one step over what they held. -/
theorem kernelRun_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : ¬cond0_0 i) (hc1 : ¬cond0_1 i)
    (x0 : Vec F S1x1024x3 .f32) (x1 : Vec F S1x1024x3 .f32) (xo2 : Vec F S1x1024x1 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowStep x0 x1 xo2) ∗ owns (c : Thread nD τ) arg6 fullShare (colStep i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

end Cert.Kernel.Hand

end
-- ==== Proof.BodyK.lean ====
/-
  The sweep as proof data for the pipeline: every array as the region finds it; after each point the two input
  buffers at their blocks and the two output buffers at the running minima (`outsAt`).  What an output buffer holds
  when a point starts: at a point that does not reset it, the buffer was not written back since the point before
  (the row buffer is written back after the last column tile of a row of tiles, the column buffer after the last
  point of a batch), so it holds what that point left; at a reset point its contents do not matter.  With the three
  per-case runs this is the body's obligation at every point; the pipeline's run follows, with the host's two sums
  and their addition after the region, and from it the frame: the argument arrays end unchanged.
-/
import proofs.«141924_j17781164606273_1_alg».proof.Proof.RunsK
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem after0_3 (c : Dev nD) (t : Fin cfg0.N) : (dats m 0 c).after 3 t = (outsAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a row of tiles the row buffer holds what the point before left: it is written back only after the last
    column tile. -/
theorem before0_2_step (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column buffer holds what the point before left: it is written back only after the batch's last
    point. -/
theorem before0_3_step (c : Dev nD) (t : Fin cfg0.N) (h1 : ¬t.val % 64 = 0) (d) :
    (dats m 0 c).before 3 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: which conditionals are taken is decided by the point's position; the inputs hold their
    blocks; an output the case does not reset holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 8 = 0
  · by_cases h1 : t.val % 64 = 0
    · rw [outsAt_row_reset m c t h0, outsAt_col_reset m c t h1]
      iintro ⟨HΦ, Ho, ⟨%d0, H0⟩, ⟨%d1, H1⟩, ⟨%d2, H2⟩, ⟨%d3, H3⟩⟩
      iapply ((kernelRun_A c (grid0.coords t) _ _ _ _ _ _ _ _ ((hcond0_0 t).mpr h0) ((hcond0_1 t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_row_reset m c t h0, outsAt_col_step m c t h1]
      simp only [before0_3_step m c t h1]
      iintro ⟨HΦ, Ho, ⟨%d0, H0⟩, ⟨%d1, H1⟩, ⟨%d2, H2⟩, ⟨%d3, H3⟩⟩
      iapply ((kernelRun_C c (grid0.coords t) _ _ _ _ _ _ _ _ ((hcond0_0 t).mpr h0) (fun h => h1 ((hcond0_1 t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [outsAt_row_step m c t h0, outsAt_col_step m c t h1]
    simp only [before0_2_step m c t h0, before0_3_step m c t h1]
    iintro ⟨HΦ, Ho, ⟨%d0, H0⟩, ⟨%d1, H1⟩, ⟨%d2, H2⟩, ⟨%d3, H3⟩⟩
    iapply ((kernelRun_B c (grid0.coords t) _ _ _ _ _ _ _ _ (fun h => h0 ((hcond0_0 t).mp h)) (fun h => h1 ((hcond0_1 t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, without a fault, with every array of the pipeline at what
    the write-backs of the proof data leave and every other buffer at what the host's lines after the region compute
    from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Steps.lean ====
/-
  What one grid point does to the two running minima, as pure functions of the point's two input blocks and of what
  the buffers held before, and what the buffers hold after every point of the sweep.
  The row buffer (1024 entries, one per point of the X tile) is reset to +infinity when a new row of tiles starts
  (column-tile coordinate 0) and then takes, entry by entry, the smaller of what it held and the least distance of
  the tile's row.  The column buffer (8192 entries, one per point of Y in the batch) is reset to +infinity when a new
  batch starts (both tile coordinates 0); only the 1024 entries of the current column tile change at a point: each
  takes the smaller of what it held and the least distance of the tile's column.
-/
import proofs.«141924_j17781164606273_1_alg».proof.Proof.Gen.KernelIdeal.Skeleton
import proofs.«141924_j17781164606273_1_alg».proof.Proof.Gen.KernelIdeal.Frame
import Idealize.ShloMosaic.Lib.WritesUnit

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The row buffer at a reset: +infinity everywhere. -/
abbrev rowInit : Vec F S1x1024x1 .f32 := k0_pay4 (F := F)

/-- The column buffer at a reset: +infinity everywhere. -/
abbrev colInit : Vec F S1x1x8192 .f32 := k0_pay1 (F := F)

/-- The row buffer after a point: entry by entry the smaller of what it held and the tile's row minimum. -/
abbrev rowStep (x0 x1 : Vec F S1x1024x3 .f32) (prev : Vec F S1x1024x1 .f32) : Vec F S1x1024x1 .f32 :=
  k0_pay5 x0 x1 prev

/-- The rectangle of the column buffer a point at grid coordinates `i` updates: the 1024 entries of its column tile. -/
abbrev colRect (i : grid0.Coords) : Rect S1x1x8192 := Rect.unit (s := S1x1x8192) (k0_off1 i) S1x1x1024.size (Facts₀.k0_off1_inb i)

/-- The column buffer after a point: inside the point's column tile the smaller of what it held and the tile's column
    minimum, outside it unchanged. -/
def colStep (i : grid0.Coords) (x0 x1 : Vec F S1x1024x3 .f32) (prev : Vec F S1x1x8192 .f32) : Vec F S1x1x8192 .f32 :=
  fun y =>
    if h : ∀ a, k0_off1 i a ≤ (y a).val ∧ (y a).val < k0_off1 i a + S1x1x1024.size a then
      k0_pay2 (k0_pay3 x0 x1) (View.ld prev (colRect i)) (Rect.unitLocal (s := S1x1x8192) (off := k0_off1 i) (size := S1x1x1024.size) y h)
    else prev y

variable (m : (ℓ : Loc nD τ sig) → Buf (Elt F) ℓ)

/-- What the row buffer and the column buffer hold after the body at position `n` of the sweep. -/
def outsAt (c : Dev nD) : (n : ℕ) → n < cfg0.N → Vec F S1x1024x1 .f32 × Vec F S1x1x8192 .f32
  | 0, hn =>
    (rowStep (iblk m c 0 ⟨0, hn⟩) (iblk m c 1 ⟨0, hn⟩) rowInit,
     colStep (grid0.coords ⟨0, hn⟩) (iblk m c 0 ⟨0, hn⟩) (iblk m c 1 ⟨0, hn⟩) colInit)
  | n + 1, hn =>
    (rowStep (iblk m c 0 ⟨n + 1, hn⟩) (iblk m c 1 ⟨n + 1, hn⟩)
        (if (n + 1) % 8 = 0 then rowInit else (outsAt c n (Nat.lt_of_succ_lt hn)).1),
     colStep (grid0.coords ⟨n + 1, hn⟩) (iblk m c 0 ⟨n + 1, hn⟩) (iblk m c 1 ⟨n + 1, hn⟩)
        (if (n + 1) % 64 = 0 then colInit else (outsAt c n (Nat.lt_of_succ_lt hn)).2))

/-- The row buffer after a point that starts a row of tiles. -/
theorem outsAt_row_reset (c : Dev nD) (t : Fin cfg0.N) (h : t.val % 8 = 0) :
    (outsAt m c t.val t.isLt).1 = rowStep (iblk m c 0 t) (iblk m c 1 t) rowInit := by
  obtain ⟨n, hn⟩ := t
  cases n with
  | zero => rfl
  | succ n => show rowStep _ _ (if (n + 1) % 8 = 0 then _ else _) = _; rw [if_pos h]

/-- The row buffer after any other point: a step over what the point before left. -/
theorem outsAt_row_step (c : Dev nD) (t : Fin cfg0.N) (h : ¬t.val % 8 = 0) :
    (outsAt m c t.val t.isLt).1
      = rowStep (iblk m c 0 t) (iblk m c 1 t) (outsAt m c (t.val - 1) (Nat.lt_of_le_of_lt (Nat.sub_le _ _) t.isLt)).1 := by
  obtain ⟨n, hn⟩ := t
  cases n with
  | zero => exact absurd (Nat.zero_mod _) h
  | succ n => show rowStep _ _ (if (n + 1) % 8 = 0 then _ else _) = _; rw [if_neg h]; rfl

/-- The column buffer after a point that starts a batch. -/
theorem outsAt_col_reset (c : Dev nD) (t : Fin cfg0.N) (h : t.val % 64 = 0) :
    (outsAt m c t.val t.isLt).2 = colStep (grid0.coords t) (iblk m c 0 t) (iblk m c 1 t) colInit := by
  obtain ⟨n, hn⟩ := t
  cases n with
  | zero => rfl
  | succ n => show colStep _ _ _ (if (n + 1) % 64 = 0 then _ else _) = _; rw [if_pos h]

/-- The column buffer after any other point: a step over what the point before left. -/
theorem outsAt_col_step (c : Dev nD) (t : Fin cfg0.N) (h : ¬t.val % 64 = 0) :
    (outsAt m c t.val t.isLt).2
      = colStep (grid0.coords t) (iblk m c 0 t) (iblk m c 1 t) (outsAt m c (t.val - 1) (Nat.lt_of_le_of_lt (Nat.sub_le _ _) t.isLt)).2 := by
  obtain ⟨n, hn⟩ := t
  cases n with
  | zero => exact absurd (Nat.zero_mod _) h
  | succ n => show colStep _ _ _ (if (n + 1) % 64 = 0 then _ else _) = _; rw [if_neg h]; rfl

end Cert.KernelIdeal.Hand

end
-- ==== Proof.Runs.lean ====
/-
  One grid point of the sweep, run on whole staging buffers: the two input blocks are only read, and the two output
  buffers end at the step functions of what they held.  Three cases of the two conditionals meet the grid: a point
  that starts a batch resets both running minima before it updates them; a point that starts a row of tiles inside a
  batch resets the row minimum only; any other point updates both.  A whole-buffer store that comes last decides
  the row buffer; the column buffer is decided entry by entry: inside the point's column tile the last store, outside
  it the earlier contents.
-/
import proofs.«141924_j17781164606273_1_alg».proof.Proof.Steps
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional of the body: the column-tile coordinate is 0. -/
abbrev cond0_0 (i : grid0.Coords) : Prop := (Scalar.cmpi .ne (Scalar.extui (Scalar.cmpi .eq (BitVec.ofNat 32 (i 2).val) 0#32)) 0#32) = 1#1
/-- It holds exactly at the points that start a row of tiles. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body: both tile coordinates are 0. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that start a batch. -/
theorem hcond0_1 : ∀ t : Fin cfg0.N, cond0_1 (grid0.coords t) ↔ t.val % 64 = 0 :=
  (by decide +kernel : ∀ t : Fin grid0.N, cond0_1 (grid0.coords t) ↔ t.val % 64 = 0)

/-- Each window's current staging memref at point `t`, as the pipeline passes it to the body. -/
abbrev ms0_0 (t : Fin cfg0.N) : Memref sig .tc .vmem S1x1024x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S1x1024x3 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S1x1024x1 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S1x1x8192 .f32 := win0_3.stage (cfg0.slots t 3)
abbrev hs0_3 (t : Fin cfg0.N) : (ms0_3 t).IsWhole := Facts₀.hstage0_3 ((cfg0.slots t 3).cast Facts₀.nbuf0_3)

/-- The zero offsets of a whole-buffer access, however they are spelt. -/
theorem hz3 : (![0, 0, 0] : Fin 3 → ℕ) = fun _ => 0 := by funext a; fin_cases a <;> rfl

/-- The row buffer read back after a whole-buffer store that came last: the store's payload. -/
theorem read_row_whole {arg5 : Memref sig .tc .vmem S1x1024x1 .f32} (f : arg5.view.ty.Contents (Elt F))
    (inb : ∀ a, (![0, 0, 0] : Fin 3 → ℕ) a + S1x1024x1.size a ≤ S1x1024x1.size a)
    (w : S1x1024x1.Idx → Elt F .f32) (L : List (View.Piece (Elt F) S1x1024x1 .f32)) :
    arg5.view.read (Elt F) (arg5.view.writes (Elt F) f ((⟨Rect.unit (s := S1x1024x1) ![0, 0, 0] S1x1024x1.size inb, w⟩ : View.Piece (Elt F) S1x1024x1 .f32) :: L)) = w := by
  rw [View.read_writes_eq_canon _ _ _ (fun y => ⟨_, List.mem_cons_self, View.mem_set_unit_zero hz3 inb y⟩)]
  exact View.canon_cons_unit_zero hz3 _ _ _

/-- The column buffer read back after a store into the point's column tile that came last: inside the tile the store's
    payload, outside it what the earlier contents read. -/
theorem read_col_slice {arg6 : Memref sig .tc .vmem S1x1x8192 .f32} (f : arg6.view.ty.Contents (Elt F)) (i : grid0.Coords)
    (inb : ∀ a, k0_off1 i a + S1x1x1024.size a ≤ S1x1x8192.size a)
    (w : S1x1x1024.Idx → Elt F .f32) (L : List (View.Piece (Elt F) S1x1x8192 .f32)) (y : S1x1x8192.Idx) :
    arg6.view.read (Elt F) (arg6.view.writes (Elt F) f ((⟨Rect.unit (s := S1x1x8192) (k0_off1 i) S1x1x1024.size inb, w⟩ : View.Piece (Elt F) S1x1x8192 .f32) :: L)) y
      = if h : ∀ a, k0_off1 i a ≤ (y a).val ∧ (y a).val < k0_off1 i a + S1x1x1024.size a then
          w (Rect.unitLocal (s := S1x1x8192) (off := k0_off1 i) (size := S1x1x1024.size) y h)
        else arg6.view.read (Elt F) (arg6.view.writes (Elt F) f L) y :=
  View.read_writes_cons_unit arg6.view f inb w L y rfl

set_option maxHeartbeats 1000000 in
/-- The body at a point that starts a batch (both conditionals taken): whatever the two output buffers held, the row buffer ends at one step over the reset value and so does the column buffer. -/
theorem kernelRun_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : cond0_0 i) (hc1 : cond0_1 i)
    (x0 : Vec F S1x1024x3 .f32) (x1 : Vec F S1x1024x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowStep x0 x1 rowInit) ∗ owns (c : Thread nD τ) arg6 fullShare (colStep i x0 x1 colInit)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

set_option maxHeartbeats 1000000 in
/-- The body at a point that starts a row of tiles inside a batch (only the first conditional taken): whatever the row buffer held it ends at one step over the reset value; the column buffer, found at `xo3`, ends at one step over `xo3`. -/
theorem kernelRun_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : cond0_0 i) (hc1 : ¬cond0_1 i)
    (x0 : Vec F S1x1024x3 .f32) (x1 : Vec F S1x1024x3 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowStep x0 x1 rowInit) ∗ owns (c : Thread nD τ) arg6 fullShare (colStep i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

set_option maxHeartbeats 1000000 in
/-- The body at any other point (no conditional taken): both buffers, found at `xo2` and `xo3`, end at one step over what they held. -/
theorem kernelRun_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1x1x8192 .f32) (harg6 : arg6.IsWhole) (hc0 : ¬cond0_0 i) (hc1 : ¬cond0_1 i)
    (x0 : Vec F S1x1024x3 .f32) (x1 : Vec F S1x1024x3 .f32) (xo2 : Vec F S1x1024x1 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowStep x0 x1 xo2) ∗ owns (c : Thread nD τ) arg6 fullShare (colStep i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row_whole]
      sl_unfold_run_names
      simp only [View.readAt_eq_ld, harg3.read_unread, harg4.read_unread, harg5.read_unread, View.ld_unit_zero (S := S1x1024x3) hz3,
        View.ld_unit_zero (S := S1x1024x1) hz3, View.readCov_unit_zero (S := S1x1024x1) _ hz3]
    iexists _; isplitr; swap; · iexact H3
    ipureintro
    funext y
    rw [read_col_slice]
    unfold colStep
    sl_unfold_run_names
    simp only [View.readAt_eq_ld, harg3.read_unread, harg4.read_unread, harg6.read_unread, View.ld_unit_zero (S := S1x1024x3) hz3,
      View.read_writes_junk_eq_canon, View.canon_unit_zero (S := S1x1x8192) hz3, View.writes_nil]

end Cert.KernelIdeal.Hand

end
-- ==== Proof.Body.lean ====
/-
  The sweep as proof data for the pipeline: every array as the region finds it; after each point the two input
  buffers at their blocks and the two output buffers at the running minima (`outsAt`).  What an output buffer holds
  when a point starts: at a point that does not reset it, the buffer was not written back since the point before
  (the row buffer is written back after the last column tile of a row of tiles, the column buffer after the last
  point of a batch), so it holds what that point left; at a reset point its contents do not matter.  With the three
  per-case runs this is the body's obligation at every point; the pipeline's run follows, with the host's two sums
  and their addition after the region, and from it the frame: the argument arrays end unchanged.
-/
import proofs.«141924_j17781164606273_1_alg».proof.Proof.Runs
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem after0_3 (c : Dev nD) (t : Fin cfg0.N) : (dats m 0 c).after 3 t = (outsAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a row of tiles the row buffer holds what the point before left: it is written back only after the last
    column tile. -/
theorem before0_2_step (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column buffer holds what the point before left: it is written back only after the batch's last
    point. -/
theorem before0_3_step (c : Dev nD) (t : Fin cfg0.N) (h1 : ¬t.val % 64 = 0) (d) :
    (dats m 0 c).before 3 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: which conditionals are taken is decided by the point's position; the inputs hold their
    blocks; an output the case does not reset holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 8 = 0
  · by_cases h1 : t.val % 64 = 0
    · rw [outsAt_row_reset m c t h0, outsAt_col_reset m c t h1]
      iintro ⟨HΦ, Ho, ⟨%d0, H0⟩, ⟨%d1, H1⟩, ⟨%d2, H2⟩, ⟨%d3, H3⟩⟩
      iapply ((kernelRun_A c (grid0.coords t) _ _ _ _ _ _ _ _ ((hcond0_0 t).mpr h0) ((hcond0_1 t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_row_reset m c t h0, outsAt_col_step m c t h1]
      simp only [before0_3_step m c t h1]
      iintro ⟨HΦ, Ho, ⟨%d0, H0⟩, ⟨%d1, H1⟩, ⟨%d2, H2⟩, ⟨%d3, H3⟩⟩
      iapply ((kernelRun_C c (grid0.coords t) _ _ _ _ _ _ _ _ ((hcond0_0 t).mpr h0) (fun h => h1 ((hcond0_1 t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [outsAt_row_step m c t h0, outsAt_col_step m c t h1]
    simp only [before0_2_step m c t h0, before0_3_step m c t h1]
    iintro ⟨HΦ, Ho, ⟨%d0, H0⟩, ⟨%d1, H1⟩, ⟨%d2, H2⟩, ⟨%d3, H3⟩⟩
    iapply ((kernelRun_B c (grid0.coords t) _ _ _ _ _ _ _ _ (fun h => h0 ((hcond0_0 t).mp h)) (fun h => h1 ((hcond0_1 t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, without a fault, with every array of the pipeline at what
    the write-backs of the proof data leave and every other buffer at what the host's lines after the region compute
    from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Tile.lean ====
/-
  The body's arithmetic read at an index, over the extended reals.
  The distance tile of a point: entry (r, c) is |x_r|^2 + |y_c|^2 - 2 <x_r, y_c> of row r of the X block and row c of
  the Y block.  The row update: entry r of the new row buffer is the smaller of the old entry and the infimum of tile
  row r.  The column update: entry c of the new slice is the smaller of the old entry and the infimum of tile column c.
  The two reset values are +infinity, the top of the extended reals.
-/
import proofs.«141924_j17781164606273_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.ShloMosaic.ValueIdx Idealize.SL.Sem
open Cert.KernelIdeal Cert.KernelIdeal.Gen

/-- The literal 2.0 both programs multiply the inner product by (never evaluated). -/
abbrev two : EReal := Ideal.ofBits .f32 0x40000000#32

/-- The reset value: the f32 pattern of +infinity is the top of the extended reals. -/
theorem inf_eq_top : Ideal.ofBits .f32 0x7F800000#32 = (⊤ : EReal) := by
  simp [Ideal.ofBits, Ideal.ieee]

/-- A fold of min from +infinity over all of Fin n is the infimum: both are the greatest lower bound of the values. -/
private theorem fold_min_eq_inf {n : ℕ} (f : Fin n → EReal) :
    (Finset.univ : Finset (Fin n)).fold min (Ideal.ofBits .f32 0x7F800000#32 : EReal) f = Finset.univ.inf f := by
  rw [inf_eq_top]
  refine eq_of_forall_le_iff fun a => ?_
  rw [Finset.le_fold_min, Finset.le_inf_iff]
  simp

/-- Column c of the tile with row k put back is entry (k, c). -/
private theorem lift0_ix2 (c : Fin 1024) (k : Fin (S1024x1024.size 0)) :
    reduces_S1024x1024_S1024_2.lift (ix1 c) k = ix2 (⟨k.val, k.isLt⟩ : Fin 1024) c := by
  funext a; apply Fin.ext
  fin_cases a <;> rfl

/-- Row r of the tile with column k put back is entry (r, k). -/
private theorem lift1_ix2 (r : Fin 1024) (k : Fin (S1024x1024.size 1)) :
    reduces_S1024x1024_S1024.lift (ix1 r) k = ix2 r (⟨k.val, k.isLt⟩ : Fin 1024) := by
  funext a; apply Fin.ext
  fin_cases a <;> rfl

/-- The operand indices of the product at output entry i and contraction position q: the first operand is read at
    (row of i, q), the second at (column of i, q). -/
private theorem lhs_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
private theorem lhs_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
private theorem rhs_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
private theorem rhs_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- Entry (r, c) of the product of the two blocks is the inner product of row r of the first and row c of the second. -/
private theorem dot_apply (a b : FVec Ideal S1024x3 .f32) (r c : Fin 1024) :
    matmul dot_S1024x3_S1024x3_S1024x1024_1_1_0_0_n_n none a b (constant S1024x1024 .f32 0x00000000#32) (ix2 r c)
      = ∑ d : Fin 3, a (ix2 r d) * b (ix2 c d) := by
  simp only [matmul]
  rw [Ideal.matmul_constant_zero_apply, ← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 r c) ((ValueIdx.contrEquiv1 dot_S1024x3_S1024x3_S1024x1024_1_1_0_0_n_n 3 rfl rfl).symm k) = ix2 r k := funext fun a => Fin.ext (by
    match a with
    | ⟨0, _⟩ => exact lhs_0 _ _
    | ⟨1, _⟩ => exact (lhs_1 _ _).trans hk)
  have er : dot_S1024x3_S1024x3_S1024x1024_1_1_0_0_n_n.rhsIdx (ix2 r c) ((ValueIdx.contrEquiv1 dot_S1024x3_S1024x3_S1024x1024_1_1_0_0_n_n 3 rfl rfl).symm k) = ix2 c k := funext fun a => Fin.ext (by
    match a with
    | ⟨0, _⟩ => exact rhs_0 _ _
    | ⟨1, _⟩ => exact (rhs_1 _ _).trans hk)
  rw [el, er]

/-- The sum along the three lanes of a [1024, 3] array at row r. -/
private theorem lanesum_apply (a : FVec Ideal S1024x3 .f32) (r : Fin 1024) :
    multiReduction (F := Ideal) .add [1] S1024 a 0x00000000#32 reduces_S1024x3_S1024 (.inl rfl) rfl (ix1 r)
      = ∑ d : Fin 3, a (ix2 r d) := by
  refine (Ideal.multiReduction_add_single a _ reduces_S1024x3_S1024 _ _ (ix1 r)).trans ?_
  refine Finset.sum_congr rfl fun k _ => congrArg a ?_
  funext e; apply Fin.ext
  fin_cases e <;> rfl

/-- Entry (r, c) of the distance tile. -/
theorem pay3_apply (x0 x1 : Vec Ideal S1x1024x3 .f32) (r c : Fin 1024) :
    k0_pay3 (F := Ideal) x0 x1 (ix2 r c)
      = ((∑ d : Fin 3, x0 (ix3 (0 : Fin 1) r d) * x0 (ix3 (0 : Fin 1) r d))
          + (∑ d : Fin 3, x1 (ix3 (0 : Fin 1) c d) * x1 (ix3 (0 : Fin 1) c d)))
        - two * ∑ d : Fin 3, x0 (ix3 (0 : Fin 1) r d) * x1 (ix3 (0 : Fin 1) c d) := by
  unfold k0_pay3
  rw [subf_apply, addf_apply, mulf_apply, broadcast_apply]
  rw [dot_apply]
  -- the squared norms of the X rows, spread along the columns, are read at (r, 0)
  rw [broadcastTo_apply _ broadcasts_S1024x1_S1024x1024 (ix2 r c) (ix2 r (0 : Fin 1)) (fun a => match a with
        | ⟨0, _⟩ => by show r.val = if (1024 : ℕ) = 1 then 0 else r.val; rw [if_neg (by decide)]
        | ⟨1, _⟩ => by show 0 = if (1 : ℕ) = 1 then 0 else c.val; rw [if_pos rfl])]
  -- the squared norms of the Y rows, spread along the rows, are read at (0, c)
  rw [broadcastTo_1b_ab_apply]
  rw [shapeCast_apply _ shapeCasts_S1024_S1024x1 (ix2 r (0 : Fin 1)) (ix1 r) (by
        rw [Shape.rowMajor_val_two, Shape.rowMajor_val_one]; show r.val = r.val * 1 + 0; omega)]
  rw [shapeCast_apply _ shapeCasts_S1024x1_S1x1024 (ix2 (0 : Fin 1) c) (ix2 c (0 : Fin 1)) (by
        rw [Shape.rowMajor_val_two, Shape.rowMajor_val_two]; show c.val * 1 + 0 = 0 * 1024 + c.val; omega)]
  rw [shapeCast_apply _ shapeCasts_S1024_S1024x1 (ix2 c (0 : Fin 1)) (ix1 c) (by
        rw [Shape.rowMajor_val_two, Shape.rowMajor_val_one]; show c.val = c.val * 1 + 0; omega)]
  rw [lanesum_apply, lanesum_apply]
  simp only [mulf_apply, shapeCast_1ab_ab_apply]
  rfl

/-- Entry r of the updated row buffer. -/
theorem pay5_apply (x0 x1 : Vec Ideal S1x1024x3 .f32) (v21 : Vec Ideal S1x1024x1 .f32) (r : Fin 1024) :
    k0_pay5 (F := Ideal) x0 x1 v21 (ix3 (0 : Fin 1) r (0 : Fin 1))
      = min (v21 (ix3 (0 : Fin 1) r (0 : Fin 1)))
          (Finset.univ.inf fun c : Fin 1024 => k0_pay3 (F := Ideal) x0 x1 (ix2 r c)) := by
  unfold k0_pay5
  generalize k0_pay3 (F := Ideal) x0 x1 = P
  rw [shapeCast_apply _ shapeCasts_S1024_S1x1024x1 (ix3 (0 : Fin 1) r (0 : Fin 1)) (ix1 r) (by
        rw [Shape.rowMajor_val_three, Shape.rowMajor_val_one]; show r.val = (0 * 1024 + r.val) * 1 + 0; omega)]
  rw [minimumf_apply]
  rw [shapeCast_apply _ shapeCasts_S1x1024x1_S1024 (ix1 r) (ix3 (0 : Fin 1) r (0 : Fin 1)) (by
        rw [Shape.rowMajor_val_three, Shape.rowMajor_val_one]; show (0 * 1024 + r.val) * 1 + 0 = r.val; omega)]
  refine congrArg (min (v21 (ix3 (0 : Fin 1) r (0 : Fin 1)))) ?_
  -- the minimum along row r, folded from +infinity, is the infimum of the row
  refine (multiReduction_minimumf_eq_fold (F := Ideal) P _ reduces_S1024x1024_S1024 _ _ (ix1 r)).trans ?_
  refine (reduces_S1024x1024_S1024.fold_filter_drop_single _ _ P (ix1 r)).trans ?_
  have hf : (P ∘ reduces_S1024x1024_S1024.lift (ix1 r)) = fun k : Fin 1024 => P (ix2 r k) :=
    funext fun k => congrArg P (lift1_ix2 r k)
  exact (congrArg (fun f => Finset.fold min (Ideal.ofBits .f32 0x7F800000#32 : EReal) f (Finset.univ : Finset (Fin 1024))) hf).trans
    (fold_min_eq_inf _)

/-- Entry c of the updated column slice. -/
theorem pay2_apply (P : FVec Ideal S1024x1024 .f32) (v37 : Vec Ideal S1x1x1024 .f32) (c : Fin 1024) :
    k0_pay2 (F := Ideal) P v37 (ix3 (0 : Fin 1) (0 : Fin 1) c)
      = min (v37 (ix3 (0 : Fin 1) (0 : Fin 1) c)) (Finset.univ.inf fun r : Fin 1024 => P (ix2 r c)) := by
  unfold k0_pay2
  rw [shapeCast_apply _ shapeCasts_S1024_S1x1x1024 (ix3 (0 : Fin 1) (0 : Fin 1) c) (ix1 c) (by
        rw [Shape.rowMajor_val_three, Shape.rowMajor_val_one]; show c.val = (0 * 1 + 0) * 1024 + c.val; omega)]
  rw [minimumf_apply]
  rw [shapeCast_apply _ shapeCasts_S1x1x1024_S1024 (ix1 c) (ix3 (0 : Fin 1) (0 : Fin 1) c) (by
        rw [Shape.rowMajor_val_three, Shape.rowMajor_val_one]; show (0 * 1 + 0) * 1024 + c.val = c.val; omega)]
  refine congrArg (min (v37 (ix3 (0 : Fin 1) (0 : Fin 1) c))) ?_
  -- the minimum down column c, folded from +infinity, is the infimum of the column
  refine (multiReduction_minimumf_eq_fold (F := Ideal) P _ reduces_S1024x1024_S1024_2 _ _ (ix1 c)).trans ?_
  refine (reduces_S1024x1024_S1024_2.fold_filter_drop_single _ _ P (ix1 c)).trans ?_
  have hf : (P ∘ reduces_S1024x1024_S1024_2.lift (ix1 c)) = fun k : Fin 1024 => P (ix2 k c) :=
    funext fun k => congrArg P (lift0_ix2 c k)
  exact (congrArg (fun f => Finset.fold min (Ideal.ofBits .f32 0x7F800000#32 : EReal) f (Finset.univ : Finset (Fin 1024))) hf).trans
    (fold_min_eq_inf _)

/-- The row buffer's reset value. -/
theorem pay4_apply (y : S1x1024x1.Idx) : k0_pay4 (F := Ideal) y = (⊤ : EReal) := by
  unfold k0_pay4
  unfold shapeCast
  exact inf_eq_top

/-- The column buffer's reset value. -/
theorem pay1_apply (y : S1x1x8192.Idx) : k0_pay1 (F := Ideal) y = (⊤ : EReal) := by
  unfold k0_pay1
  unfold shapeCast
  exact inf_eq_top

end Cert.KernelIdeal.Tile

end
-- ==== Proof.Spec.lean ====
/-
  The mathematics of the chamfer loss, stated once over the extended reals and over plain coordinate functions.
  For two clouds of 8192 points in R^3 per batch, X (the ground truth) and Y (the predictions),
  the expanded squared distance is  |x|^2 + |y|^2 - two * <x, y>  (the factor is kept as a parameter: both programs
  spell it with the same literal, which is never evaluated), the row minimum of point n is the infimum over all k,
  the column minimum of point k the infimum over all n, and the loss is the sum of all column minima plus the sum of
  all row minima.  The partial infima over the first J tiles of 1024 points are what a tile-by-tile sweep holds on
  the way; they start at top, grow by one tile's infimum at a time, and after eight tiles are the full infimum.
-/
import Idealize.ShloMosaic.PureOps.Ideal

noncomputable section

namespace Cert.Chamfer

/-- The expanded squared distance between point `n` of `X` and point `k` of `Y` in batch `b`. -/
def dist (two : EReal) (X Y : Fin 4 → Fin 8192 → Fin 3 → EReal) (b : Fin 4) (n k : Fin 8192) : EReal :=
  ((∑ d : Fin 3, X b n d * X b n d) + (∑ d : Fin 3, Y b k d * Y b k d)) - two * ∑ d : Fin 3, X b n d * Y b k d

/-- The least distance from point `n` of `X` to any point of `Y`. -/
def rowMin (two : EReal) (X Y : Fin 4 → Fin 8192 → Fin 3 → EReal) (b : Fin 4) (n : Fin 8192) : EReal :=
  Finset.univ.inf fun k : Fin 8192 => dist two X Y b n k

/-- The least distance from point `k` of `Y` to any point of `X`. -/
def colMin (two : EReal) (X Y : Fin 4 → Fin 8192 → Fin 3 → EReal) (b : Fin 4) (k : Fin 8192) : EReal :=
  Finset.univ.inf fun n : Fin 8192 => dist two X Y b n k

/-- The chamfer loss: all column minima summed, plus all row minima summed. -/
def loss (two : EReal) (X Y : Fin 4 → Fin 8192 → Fin 3 → EReal) : EReal :=
  (∑ p : Fin 4 × Fin 8192, colMin two X Y p.1 p.2) + (∑ p : Fin 4 × Fin 8192, rowMin two X Y p.1 p.2)

/-- The row minimum restricted to the first `J` tiles of 1024 points of `Y`. -/
def rowMinUpTo (two : EReal) (X Y : Fin 4 → Fin 8192 → Fin 3 → EReal) (b : Fin 4) (n : Fin 8192) (J : ℕ) : EReal :=
  (Finset.univ.filter fun k : Fin 8192 => k.val < 1024 * J).inf fun k => dist two X Y b n k

/-- The column minimum restricted to the first `I` tiles of 1024 points of `X`. -/
def colMinUpTo (two : EReal) (X Y : Fin 4 → Fin 8192 → Fin 3 → EReal) (b : Fin 4) (k : Fin 8192) (I : ℕ) : EReal :=
  (Finset.univ.filter fun n : Fin 8192 => n.val < 1024 * I).inf fun n => dist two X Y b n k

variable (two : EReal) (X Y : Fin 4 → Fin 8192 → Fin 3 → EReal) (b : Fin 4)

/-- Over no tiles at all the index set is empty, so the infimum is top. -/
private theorem infUpTo_zero (f : Fin 8192 → EReal) :
    (Finset.univ.filter fun k : Fin 8192 => k.val < 1024 * 0).inf f = ⊤ := by
  have h : (Finset.univ.filter fun k : Fin 8192 => k.val < 1024 * 0) = ∅ := by
    apply Finset.filter_false_of_mem
    intro k _
    omega
  rw [h, Finset.inf_empty]

/-- Eight tiles of 1024 cover all 8192 indices, so the restricted infimum is the full one. -/
private theorem infUpTo_eight (f : Fin 8192 → EReal) :
    (Finset.univ.filter fun k : Fin 8192 => k.val < 1024 * 8).inf f = Finset.univ.inf f := by
  have h : (Finset.univ.filter fun k : Fin 8192 => k.val < 1024 * 8) = Finset.univ := by
    apply Finset.filter_true_of_mem
    intro k _
    have := k.isLt
    omega
  rw [h]

/-- An index below 1024 * (J + 1) is either below 1024 * J or of the form 1024 * J + c with c < 1024, and
    conversely; so a lower bound of the first J + 1 tiles is exactly a lower bound of the first J tiles and of
    tile J. -/
private theorem infUpTo_succ (f : Fin 8192 → EReal) (J : ℕ) (hJ : J < 8) :
    (Finset.univ.filter fun k : Fin 8192 => k.val < 1024 * (J + 1)).inf f
      = min ((Finset.univ.filter fun k : Fin 8192 => k.val < 1024 * J).inf f)
          (Finset.univ.inf fun c : Fin 1024 => f ⟨1024 * J + c.val, by have := c.isLt; omega⟩) := by
  refine eq_of_forall_le_iff fun a => ?_
  simp only [Finset.le_inf_iff, le_min_iff, Finset.mem_filter, Finset.mem_univ, true_and, forall_true_left]
  constructor
  · intro h
    refine ⟨fun k hk => h k (by omega), fun c => h _ ?_⟩
    show 1024 * J + c.val < 1024 * (J + 1)
    have := c.isLt
    omega
  · rintro ⟨h1, h2⟩ k hk
    by_cases hlt : k.val < 1024 * J
    · exact h1 k hlt
    · have hc : k.val - 1024 * J < 1024 := by omega
      have e : (⟨1024 * J + (⟨k.val - 1024 * J, hc⟩ : Fin 1024).val, by have := k.isLt; show 1024 * J + (k.val - 1024 * J) < 8192; omega⟩ : Fin 8192) = k :=
        Fin.ext (by show 1024 * J + (k.val - 1024 * J) = k.val; omega)
      calc a ≤ f ⟨1024 * J + (⟨k.val - 1024 * J, hc⟩ : Fin 1024).val, _⟩ := h2 ⟨k.val - 1024 * J, hc⟩
        _ = f k := congrArg f e

theorem rowMinUpTo_zero (n : Fin 8192) : rowMinUpTo two X Y b n 0 = ⊤ := by
  unfold rowMinUpTo
  exact infUpTo_zero _

theorem colMinUpTo_zero (k : Fin 8192) : colMinUpTo two X Y b k 0 = ⊤ := by
  unfold colMinUpTo
  exact infUpTo_zero _

/-- One more tile: the partial row minimum over `J + 1` tiles is the smaller of the one over `J` tiles and the
    infimum over tile `J`. -/
theorem rowMinUpTo_succ (n : Fin 8192) (J : ℕ) (hJ : J < 8) :
    rowMinUpTo two X Y b n (J + 1)
      = min (rowMinUpTo two X Y b n J)
          (Finset.univ.inf fun c : Fin 1024 => dist two X Y b n ⟨1024 * J + c.val, by have := c.isLt; omega⟩) := by
  unfold rowMinUpTo
  exact infUpTo_succ (fun k => dist two X Y b n k) J hJ

theorem colMinUpTo_succ (k : Fin 8192) (I : ℕ) (hI : I < 8) :
    colMinUpTo two X Y b k (I + 1)
      = min (colMinUpTo two X Y b k I)
          (Finset.univ.inf fun r : Fin 1024 => dist two X Y b ⟨1024 * I + r.val, by have := r.isLt; omega⟩ k) := by
  unfold colMinUpTo
  exact infUpTo_succ (fun n => dist two X Y b n k) I hI

theorem rowMinUpTo_eight (n : Fin 8192) : rowMinUpTo two X Y b n 8 = rowMin two X Y b n := by
  unfold rowMinUpTo rowMin
  exact infUpTo_eight _

theorem colMinUpTo_eight (k : Fin 8192) : colMinUpTo two X Y b k 8 = colMin two X Y b k := by
  unfold colMinUpTo colMin
  exact infUpTo_eight _

end Cert.Chamfer

end
-- ==== Proof.Blocks.lean ====
/-
  Where a grid point's blocks sit in the argument arrays.  Point t of the 4 x 8 x 8 sweep (batch-major, then row tile,
  then column tile) has batch t / 64, row tile (t / 8) mod 8 and column tile t mod 8.  Its X block is rows
  1024 * rowtile ... of batch b of the ground-truth array, its Y block rows 1024 * coltile ... of the predictions; so
  entry (r, c) of its distance tile is the expanded squared distance between those two points of the clouds.
-/
import proofs.«141924_j17781164606273_1_alg».proof.Proof.Steps
import proofs.«141924_j17781164606273_1_alg».proof.Proof.Tile
import proofs.«141924_j17781164606273_1_alg».proof.Proof.Spec

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-- The batch of point `t`. -/
def tb (t : Fin cfg0.N) : Fin 4 := ⟨t.val / 64, by have := lt_of_lt_of_eq t.isLt (show cfg0.N = 256 from N_0); omega⟩

/-- Row `r` of point `t`'s X block, as a point of the cloud. -/
def rowAt (t : Fin cfg0.N) (r : Fin 1024) : Fin 8192 := ⟨1024 * (t.val / 8 % 8) + r.val, by have := r.isLt; omega⟩

/-- Row `c` of point `t`'s Y block, as a point of the cloud. -/
def colAt (t : Fin cfg0.N) (c : Fin 1024) : Fin 8192 := ⟨1024 * (t.val % 8) + c.val, by have := c.isLt; omega⟩

/-- The block indices of the two input windows and the column-tile coordinate at every point of the sweep. -/
private theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ (grid0.coords t (2 : Fin 3)).val = t.val % 8 :=
  (by decide +kernel : ∀ t : Fin grid0.N, _)

variable (m : (ℓ : Loc nD τ sig) → Buf (Elt Ideal) ℓ)

/-- The ground-truth cloud (the program's second argument) by coordinates. -/
def Xc (c : Dev nD) : Fin 4 → Fin 8192 → Fin 3 → EReal := fun b n d => m ((c.tc : Thread nD τ).loc main_arg1) (ix3 b n d)

/-- The predicted cloud (the program's first argument) by coordinates. -/
def Yc (c : Dev nD) : Fin 4 → Fin 8192 → Fin 3 → EReal := fun b n d => m ((c.tc : Thread nD τ).loc main_arg0) (ix3 b n d)

/-- The X block of point `t` holds rows `rowAt t ·` of batch `tb t`. -/
theorem xblk_apply (c : Dev nD) (t : Fin cfg0.N) (r : Fin 1024) (d : Fin 3) :
    (iblk m c 0 t : Vec Ideal S1x1024x3 .f32) (ix3 (0 : Fin 1) r d) = Xc m c (tb t) (rowAt t r) d := by
  obtain ⟨e0, e1, e2, -⟩ := idx_facts t
  unfold iblk
  rw [View.read_apply]
  show V m c main_arg1 (((cfg0.win 0).blk t).view.emb (ix3 (0 : Fin 1) r d)) = m ((c.tc : Thread nD τ).loc main_arg1) (ix3 (tb t) (rowAt t r) d)
  rw [V_main_arg1]
  congr 1
  funext a
  apply Fin.ext
  match a with
  | ⟨0, _⟩ => show win0_0.index t (0 : Fin 3) * 1 + 1 * 0 = t.val / 64; omega
  | ⟨1, _⟩ => show win0_0.index t (1 : Fin 3) * 1024 + 1 * r.val = 1024 * (t.val / 8 % 8) + r.val; omega
  | ⟨2, _⟩ => show win0_0.index t (2 : Fin 3) * 3 + 1 * d.val = d.val; omega

/-- The Y block of point `t` holds rows `colAt t ·` of batch `tb t`. -/
theorem yblk_apply (c : Dev nD) (t : Fin cfg0.N) (r : Fin 1024) (d : Fin 3) :
    (iblk m c 1 t : Vec Ideal S1x1024x3 .f32) (ix3 (0 : Fin 1) r d) = Yc m c (tb t) (colAt t r) d := by
  obtain ⟨-, -, -, e0, e1, e2, -⟩ := idx_facts t
  unfold iblk
  rw [View.read_apply]
  show V m c main_arg0 (((cfg0.win 1).blk t).view.emb (ix3 (0 : Fin 1) r d)) = m ((c.tc : Thread nD τ).loc main_arg0) (ix3 (tb t) (colAt t r) d)
  rw [V_main_arg0]
  congr 1
  funext a
  apply Fin.ext
  match a with
  | ⟨0, _⟩ => show win0_1.index t (0 : Fin 3) * 1 + 1 * 0 = t.val / 64; omega
  | ⟨1, _⟩ => show win0_1.index t (1 : Fin 3) * 1024 + 1 * r.val = 1024 * (t.val % 8) + r.val; omega
  | ⟨2, _⟩ => show win0_1.index t (2 : Fin 3) * 3 + 1 * d.val = d.val; omega

/-- Entry (r, cc) of point `t`'s distance tile is the distance between those two points of the clouds. -/
theorem tile_apply (c : Dev nD) (t : Fin cfg0.N) (r cc : Fin 1024) :
    k0_pay3 (F := Ideal) (iblk m c 0 t) (iblk m c 1 t) (ix2 r cc)
      = Cert.Chamfer.dist Tile.two (Xc m c) (Yc m c) (tb t) (rowAt t r) (colAt t cc) := by
  rw [Tile.pay3_apply]
  simp only [xblk_apply m c t, yblk_apply m c t]
  unfold Cert.Chamfer.dist
  rfl

/-- The offsets of the column buffer's slice at point `t`: the column tile's first entry. -/
theorem off_apply (t : Fin cfg0.N) : k0_off1 (grid0.coords t) = ![0, 0, 1024 * (t.val % 8)] := by
  obtain ⟨-, -, -, -, -, -, e⟩ := idx_facts t
  rw [k0_off1_eq]
  show ![0, 0, 1024 * (grid0.coords t (2 : Fin 3)).val] = _
  rw [e]

end Cert.KernelIdeal.Hand

end
-- ==== Proof.RowInv.lean ====
/-
  The row buffer along the sweep: after point t, entry r holds the least distance from point (row tile, r) of the
  ground-truth cloud to the first (column tile + 1) tiles of the predictions.  By induction on the point: a point
  that starts a row of tiles resets to +infinity and takes the first tile's infimum; every other point adds one tile.
-/
import proofs.«141924_j17781164606273_1_alg».proof.Proof.Blocks

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- One step of the row buffer read at entry `r`: the smaller of what it held and the least distance of tile row `r`. -/
private theorem rowStep_apply (c : Dev nD) (t : Fin cfg0.N) (r : Fin 1024) (prev : Vec Ideal S1x1024x1 .f32) :
    rowStep (iblk m c 0 t) (iblk m c 1 t) prev (ix3 (0 : Fin 1) r (0 : Fin 1))
      = min (prev (ix3 (0 : Fin 1) r (0 : Fin 1)))
          (Finset.univ.inf fun cc : Fin 1024 =>
            Cert.Chamfer.dist Tile.two (Xc m c) (Yc m c) (tb t) (rowAt t r) (colAt t cc)) := by
  show k0_pay5 (F := Ideal) (iblk m c 0 t) (iblk m c 1 t) prev (ix3 (0 : Fin 1) r (0 : Fin 1)) = _
  rw [Tile.pay5_apply]
  simp only [tile_apply]

/-- The partial row minimum through point `t`'s column tile is the one over the tiles before it, lowered by that
    tile's infimum: the tile's points are `colAt t ·`. -/
private theorem upTo_succ (c : Dev nD) (t : Fin cfg0.N) (r : Fin 1024) :
    Cert.Chamfer.rowMinUpTo Tile.two (Xc m c) (Yc m c) (tb t) (rowAt t r) (t.val % 8 + 1)
      = min (Cert.Chamfer.rowMinUpTo Tile.two (Xc m c) (Yc m c) (tb t) (rowAt t r) (t.val % 8))
          (Finset.univ.inf fun cc : Fin 1024 =>
            Cert.Chamfer.dist Tile.two (Xc m c) (Yc m c) (tb t) (rowAt t r) (colAt t cc)) :=
  Cert.Chamfer.rowMinUpTo_succ Tile.two (Xc m c) (Yc m c) (tb t) (rowAt t r) (t.val % 8) (Nat.mod_lt _ (by decide))

/-- A point that starts a row of tiles: the buffer is reset to the top and takes the first tile's infimum. -/
private theorem row_reset (c : Dev nD) (t : Fin cfg0.N) (h : t.val % 8 = 0) (r : Fin 1024) :
    (outsAt m c t.val t.isLt).1 (ix3 (0 : Fin 1) r (0 : Fin 1))
      = Cert.Chamfer.rowMinUpTo Tile.two (Xc m c) (Yc m c) (tb t) (rowAt t r) (t.val % 8 + 1) := by
  have e : Cert.Chamfer.rowMinUpTo Tile.two (Xc m c) (Yc m c) (tb t) (rowAt t r) (t.val % 8) = ⊤ := by
    rw [h]; exact Cert.Chamfer.rowMinUpTo_zero Tile.two (Xc m c) (Yc m c) (tb t) (rowAt t r)
  rw [outsAt_row_reset m c t h, rowStep_apply, upTo_succ, e]
  show min (k0_pay4 (F := Ideal) (ix3 (0 : Fin 1) r (0 : Fin 1))) _ = _
  rw [Tile.pay4_apply]

/-- Any other point: one more tile on top of what the point before left. -/
private theorem row_step (c : Dev nD) (t : Fin cfg0.N) (h : ¬t.val % 8 = 0) (r : Fin 1024)
    (ih : (outsAt m c (t.val - 1) (Nat.lt_of_le_of_lt (Nat.sub_le _ _) t.isLt)).1 (ix3 (0 : Fin 1) r (0 : Fin 1))
      = Cert.Chamfer.rowMinUpTo Tile.two (Xc m c) (Yc m c) (tb t) (rowAt t r) (t.val % 8)) :
    (outsAt m c t.val t.isLt).1 (ix3 (0 : Fin 1) r (0 : Fin 1))
      = Cert.Chamfer.rowMinUpTo Tile.two (Xc m c) (Yc m c) (tb t) (rowAt t r) (t.val % 8 + 1) := by
  rw [outsAt_row_step m c t h, rowStep_apply, upTo_succ, ih]

/-- The invariant by induction on the position in the sweep. -/
private theorem row_inv_nat (c : Dev nD) : ∀ (n : ℕ) (hn : n < cfg0.N) (r : Fin 1024),
    (outsAt m c n hn).1 (ix3 (0 : Fin 1) r (0 : Fin 1))
      = Cert.Chamfer.rowMinUpTo Tile.two (Xc m c) (Yc m c) (tb ⟨n, hn⟩) (rowAt ⟨n, hn⟩ r) (n % 8 + 1) := by
  intro n
  induction n with
  | zero => intro hn r; exact row_reset m c ⟨0, hn⟩ rfl r
  | succ n ih =>
    intro hn r
    by_cases h : (n + 1) % 8 = 0
    · exact row_reset m c ⟨n + 1, hn⟩ h r
    · refine row_step m c ⟨n + 1, hn⟩ h r ?_
      have hp := ih (Nat.lt_of_succ_lt hn) r
      have e1 : tb ⟨n, Nat.lt_of_succ_lt hn⟩ = tb ⟨n + 1, hn⟩ := Fin.ext (by show n / 64 = (n + 1) / 64; omega)
      have e2 : rowAt ⟨n, Nat.lt_of_succ_lt hn⟩ r = rowAt ⟨n + 1, hn⟩ r :=
        Fin.ext (by show 1024 * (n / 8 % 8) + r.val = 1024 * ((n + 1) / 8 % 8) + r.val; omega)
      have e3 : n % 8 + 1 = (n + 1) % 8 := by omega
      rw [e1, e2, e3] at hp
      exact hp

theorem row_inv (c : Dev nD) (t : Fin cfg0.N) (r : Fin 1024) :
    (outsAt m c t.val t.isLt).1 (ix3 (0 : Fin 1) r (0 : Fin 1))
      = Cert.Chamfer.rowMinUpTo Tile.two (Xc m c) (Yc m c) (tb t) (rowAt t r) (t.val % 8 + 1) := by
  exact row_inv_nat m c t.val t.isLt r

end Cert.KernelIdeal.Hand

end
-- ==== Proof.FinalRow.lean ====
/-
  The row-minimum array after the sweep.  The row buffer is written back after the last column tile of each row of
  tiles, when it holds the full row minima of its 1024 points; the written-back blocks tile the array, so the array
  ends at the row minima of the clouds.
-/
import proofs.«141924_j17781164606273_1_alg».proof.Proof.Body
import proofs.«141924_j17781164606273_1_alg».proof.Proof.RowInv
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The block index of the row-minimum array's window at every point of the sweep: batch, row tile, 0. -/
private theorem idx_facts2 : ∀ t : Fin cfg0.N,
    win0_2.index t (0 : Fin 3) = t.val / 64 ∧ win0_2.index t (1 : Fin 3) = t.val / 8 % 8 ∧ win0_2.index t (2 : Fin 3) = 0 :=
  (by decide +kernel : ∀ t : Fin grid0.N, _)

/-- The row minima of the clouds, as contents of the row-minimum array. -/
private abbrev rowMins (c : Dev nD) : S4x8192x1.Idx → EReal :=
  fun i => Cert.Chamfer.rowMin Tile.two (Xc m c) (Yc m c) (i 0) (i 1)

/-- What a point after the last column tile of a row of tiles writes back is its block of the row minima: the
    buffer then holds the partial minima over all eight tiles. -/
private theorem flushed_eq (c : Dev nD) (t : Fin cfg0.N) (hf : (cfg0.win 2).flush t = true) :
    (dats (F := Ideal) m 0 c).flushed 2 t = ((cfg0.win 2).blk t).view.read (Elt Ideal) (rowMins m c) := by
  have h7 : t.val % 8 = 7 := (flush0_2 t).mp hf
  obtain ⟨e0, e1, e2⟩ := idx_facts2 t
  funext y
  obtain ⟨a, r, b, rfl⟩ : ∃ (a : Fin 1) (r : Fin 1024) (b : Fin 1), y = ix3 a r b := ⟨y 0, y 1, y 2, eq_ix3 y⟩
  obtain rfl : a = 0 := Subsingleton.elim a 0
  obtain rfl : b = 0 := Subsingleton.elim b 0
  show (cfg0.win 2).cut (grid0.coords t) ((dats m 0 c).after 2 t) (ix3 (0 : Fin 1) r (0 : Fin 1)) = _
  rw [after0_2]
  show (outsAt m c t.val t.isLt).1 (ix3 (0 : Fin 1) r (0 : Fin 1)) = _
  rw [row_inv m c t r, h7, Cert.Chamfer.rowMinUpTo_eight, View.read_apply]
  show Cert.Chamfer.rowMin Tile.two (Xc m c) (Yc m c) (tb t) (rowAt t r)
    = Cert.Chamfer.rowMin Tile.two (Xc m c) (Yc m c)
        (((cfg0.win 2).blk t).view.emb (ix3 (0 : Fin 1) r (0 : Fin 1)) (0 : Fin 3))
        (((cfg0.win 2).blk t).view.emb (ix3 (0 : Fin 1) r (0 : Fin 1)) (1 : Fin 3))
  congr 1 <;> apply Fin.ext
  · show t.val / 64 = win0_2.index t (0 : Fin 3) * 1 + 1 * 0; omega
  · show 1024 * (t.val / 8 % 8) + r.val = win0_2.index t (1 : Fin 3) * 1024 + 1 * r.val; omega

/-- The row-minimum array after the run: entry (b, n, 0) is the least distance from point n of the ground truth to the
    predictions of batch b. -/
theorem final_row (c : Dev nD) :
    (dats (F := Ideal) m 0 c).arrAt 2 cfg0.N
      = (fun i : S4x8192x1.Idx => Cert.Chamfer.rowMin Tile.two (Xc m c) (Yc m c) (i 0) (i 1)) := by
  refine (dats (F := Ideal) m 0 c).arrAt_eq_of_cover 2 (rowMins m c) (flushed_eq m c) fun (i : S4x8192x1.Idx) => ?_
  have h0 : (i 0).val < 4 := (i 0).isLt
  have h1 : (i 1).val < 8192 := (i 1).isLt
  have h2 : (i 2).val < 1 := (i 2).isLt
  obtain ⟨t, ht⟩ : ∃ t : Fin cfg0.N, t.val = 64 * (i 0).val + 8 * ((i 1).val / 1024) + 7 :=
    ⟨⟨64 * (i 0).val + 8 * ((i 1).val / 1024) + 7, by rw [show cfg0.N = 256 from N_0]; omega⟩, rfl⟩
  obtain ⟨e0, e1, e2⟩ := idx_facts2 t
  refine ⟨t, (flush0_2 t).mpr (by omega), ?_⟩
  have hm := View.emb_mem_set ((cfg0.win 2).blk t).view
    (ix3 (0 : Fin 1) (⟨(i 1).val % 1024, Nat.mod_lt _ (by decide)⟩ : Fin 1024) (0 : Fin 1))
  have he : ((cfg0.win 2).blk t).view.emb
      (ix3 (0 : Fin 1) (⟨(i 1).val % 1024, Nat.mod_lt _ (by decide)⟩ : Fin 1024) (0 : Fin 1)) = i := by
    funext a
    apply Fin.ext
    match a with
    | ⟨0, _⟩ => show win0_2.index t (0 : Fin 3) * 1 + 1 * 0 = (i 0).val; omega
    | ⟨1, _⟩ => show win0_2.index t (1 : Fin 3) * 1024 + 1 * ((i 1).val % 1024) = (i 1).val; omega
    | ⟨2, _⟩ => show win0_2.index t (2 : Fin 3) * 1 + 1 * 0 = (i 2).val; omega
  rw [he] at hm
  exact hm

end Cert.KernelIdeal.Hand

end
-- ==== Proof.ColInv.lean ====
/-
  The column buffer along the sweep: after point t, entry k holds the least distance from point k of the predictions
  to the ground-truth tiles swept so far for k's column tile: row tiles 0 .. (current) if k's column tile has been
  visited in the current row of tiles, row tiles 0 .. (current - 1) if not.  By induction on the point: a point that
  starts a batch resets to +infinity; every point updates only its own column tile's 1024 entries.
-/
import proofs.«141924_j17781164606273_1_alg».proof.Proof.Blocks

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-- Entry k of the column buffer lies in the slice of 1024 entries starting at o exactly when o ≤ k < o + 1024: the
    first two coordinates of the buffer have extent 1 and impose nothing. -/
private theorem cond_iff (o : ℕ) (k : Fin 8192) :
    (∀ a : Fin 3, (![0, 0, o] : Fin 3 → ℕ) a ≤ ((ix3 (0 : Fin 1) (0 : Fin 1) k : S1x1x8192.Idx) a).val
        ∧ ((ix3 (0 : Fin 1) (0 : Fin 1) k : S1x1x8192.Idx) a).val < (![0, 0, o] : Fin 3 → ℕ) a + S1x1x1024.size a)
      ↔ (o ≤ k.val ∧ k.val < o + 1024) := by
  constructor
  · intro h
    exact h 2
  · intro h a
    match a with
    | ⟨0, _⟩ => exact ⟨Nat.zero_le _, by show (0 : ℕ) < 0 + 1; omega⟩
    | ⟨1, _⟩ => exact ⟨Nat.zero_le _, by show (0 : ℕ) < 0 + 1; omega⟩
    | ⟨2, _⟩ => exact h

/-- Inside the slice starting at o: entry k becomes the smaller of what it held and the infimum of column k - o of the
    tile.  (The position of k within the slice is k - o, and the slice's old entry there is the buffer's entry k.) -/
private theorem step_in (off : Fin 3 → ℕ) (inb : ∀ a, off a + S1x1x1024.size a ≤ S1x1x8192.size a) (o : ℕ)
    (hoff : off = ![0, 0, o]) (P : FVec Ideal S1024x1024 .f32) (prev : Vec Ideal S1x1x8192 .f32) (k : Fin 8192)
    (hk : o ≤ k.val ∧ k.val < o + 1024) :
    (if h : ∀ a, off a ≤ ((ix3 (0 : Fin 1) (0 : Fin 1) k : S1x1x8192.Idx) a).val
          ∧ ((ix3 (0 : Fin 1) (0 : Fin 1) k : S1x1x8192.Idx) a).val < off a + S1x1x1024.size a then
        k0_pay2 (F := Ideal) P (View.ld prev (Rect.unit (s := S1x1x8192) off S1x1x1024.size inb))
          (Rect.unitLocal (s := S1x1x8192) (off := off) (size := S1x1x1024.size) (ix3 (0 : Fin 1) (0 : Fin 1) k) h)
      else prev (ix3 (0 : Fin 1) (0 : Fin 1) k))
      = min (prev (ix3 (0 : Fin 1) (0 : Fin 1) k))
          (Finset.univ.inf fun r : Fin 1024 => P (ix2 r ⟨k.val - o, by omega⟩)) := by
  subst hoff
  rw [dif_pos ((cond_iff o k).mpr hk)]
  have hloc : Rect.unitLocal (s := S1x1x8192) (off := ![0, 0, o]) (size := S1x1x1024.size)
        (ix3 (0 : Fin 1) (0 : Fin 1) k) ((cond_iff o k).mpr hk)
      = (ix3 (0 : Fin 1) (0 : Fin 1) (⟨k.val - o, by omega⟩ : Fin 1024) : S1x1x1024.Idx) := by
    funext a
    match a with
    | ⟨0, _⟩ => exact Fin.ext rfl
    | ⟨1, _⟩ => exact Fin.ext rfl
    | ⟨2, _⟩ => exact Fin.ext rfl
  rw [hloc, Tile.pay2_apply]
  have hold : View.ld prev (Rect.unit (s := S1x1x8192) ![0, 0, o] S1x1x1024.size inb)
        (ix3 (0 : Fin 1) (0 : Fin 1) (⟨k.val - o, by omega⟩ : Fin 1024))
      = prev (ix3 (0 : Fin 1) (0 : Fin 1) k) := by
    show prev _ = prev _
    congr 1
    funext a
    match a with
    | ⟨0, _⟩ => exact Fin.ext rfl
    | ⟨1, _⟩ => exact Fin.ext rfl
    | ⟨2, _⟩ =>
      apply Fin.ext
      show o + 1 * (k.val - o) = k.val
      omega
  rw [hold]

/-- Outside the slice starting at o the entry is unchanged. -/
private theorem step_out (off : Fin 3 → ℕ) (inb : ∀ a, off a + S1x1x1024.size a ≤ S1x1x8192.size a) (o : ℕ)
    (hoff : off = ![0, 0, o]) (P : FVec Ideal S1024x1024 .f32) (prev : Vec Ideal S1x1x8192 .f32) (k : Fin 8192)
    (hk : ¬(o ≤ k.val ∧ k.val < o + 1024)) :
    (if h : ∀ a, off a ≤ ((ix3 (0 : Fin 1) (0 : Fin 1) k : S1x1x8192.Idx) a).val
          ∧ ((ix3 (0 : Fin 1) (0 : Fin 1) k : S1x1x8192.Idx) a).val < off a + S1x1x1024.size a then
        k0_pay2 (F := Ideal) P (View.ld prev (Rect.unit (s := S1x1x8192) off S1x1x1024.size inb))
          (Rect.unitLocal (s := S1x1x8192) (off := off) (size := S1x1x1024.size) (ix3 (0 : Fin 1) (0 : Fin 1) k) h)
      else prev (ix3 (0 : Fin 1) (0 : Fin 1) k))
      = prev (ix3 (0 : Fin 1) (0 : Fin 1) k) := by
  subst hoff
  rw [dif_neg (mt (cond_iff o k).mp hk)]

variable (m : (ℓ : Loc nD τ sig) → Buf (Elt Ideal) ℓ)

/-- One point of the sweep, entry by entry.  Before point n the entries of the column tiles already visited in the
    current row of tiles (those left of column tile n mod 8) count one row tile more than the others; the point adds
    its own column tile to the visited ones: there the entry takes the infimum over one more tile of 1024 ground-truth
    points, elsewhere nothing changes. -/
private theorem colStep_spec (c : Dev nD) (n : ℕ) (hn : n < cfg0.N) (prev : Vec Ideal S1x1x8192 .f32) (k : Fin 8192)
    (hprev : prev (ix3 (0 : Fin 1) (0 : Fin 1) k)
      = Cert.Chamfer.colMinUpTo Tile.two (Xc m c) (Yc m c) (tb ⟨n, hn⟩) k
          (if k.val / 1024 < n % 8 then n / 8 % 8 + 1 else n / 8 % 8)) :
    colStep (grid0.coords ⟨n, hn⟩) (iblk m c 0 ⟨n, hn⟩) (iblk m c 1 ⟨n, hn⟩) prev (ix3 (0 : Fin 1) (0 : Fin 1) k)
      = Cert.Chamfer.colMinUpTo Tile.two (Xc m c) (Yc m c) (tb ⟨n, hn⟩) k
          (if k.val / 1024 ≤ n % 8 then n / 8 % 8 + 1 else n / 8 % 8) := by
  have h256 : n < 256 := lt_of_lt_of_eq hn N_0
  have hk8 := k.isLt
  by_cases hk : 1024 * (n % 8) ≤ k.val ∧ k.val < 1024 * (n % 8) + 1024
  · refine (step_in (k0_off1 (grid0.coords ⟨n, hn⟩)) _ (1024 * (n % 8)) (off_apply ⟨n, hn⟩)
      (k0_pay3 (F := Ideal) (iblk m c 0 ⟨n, hn⟩) (iblk m c 1 ⟨n, hn⟩)) prev k hk).trans ?_
    have hcol : colAt ⟨n, hn⟩ (⟨k.val - 1024 * (n % 8), by omega⟩ : Fin 1024) = k :=
      Fin.ext (by show 1024 * (n % 8) + (k.val - 1024 * (n % 8)) = k.val; omega)
    rw [hprev, if_neg (by omega), if_pos (by omega),
      Cert.Chamfer.colMinUpTo_succ _ _ _ _ k (n / 8 % 8) (by omega)]
    congr 1
    refine Finset.inf_congr rfl fun r _ => ?_
    rw [tile_apply, hcol]
    rfl
  · refine (step_out (k0_off1 (grid0.coords ⟨n, hn⟩)) _ (1024 * (n % 8)) (off_apply ⟨n, hn⟩)
      (k0_pay3 (F := Ideal) (iblk m c 0 ⟨n, hn⟩) (iblk m c 1 ⟨n, hn⟩)) prev k hk).trans ?_
    rw [hprev]
    congr 1
    split_ifs <;> omega

/-- The invariant by position in the sweep.  A point that starts a batch (n divisible by 64) finds +infinity, the
    infimum over no tile.  Any other point finds what point n - 1 left, in the same batch; passing from n - 1 to n
    within a row of tiles only shifts "visited" by one column tile, and at the start of a new row of tiles every
    column tile has been visited in the row before, so all entries count that whole row and none is visited yet. -/
private theorem col_inv_nat (c : Dev nD) (n : ℕ) : ∀ (hn : n < cfg0.N) (k : Fin 8192),
    (outsAt m c n hn).2 (ix3 (0 : Fin 1) (0 : Fin 1) k)
      = Cert.Chamfer.colMinUpTo Tile.two (Xc m c) (Yc m c) (tb ⟨n, hn⟩) k
          (if k.val / 1024 ≤ n % 8 then n / 8 % 8 + 1 else n / 8 % 8) := by
  induction n with
  | zero =>
    intro hn k
    refine (congrFun (outsAt_col_reset m c ⟨0, hn⟩ (Nat.zero_mod _)) _).trans ?_
    refine colStep_spec m c 0 hn _ k ?_
    refine (Tile.pay1_apply _).trans ?_
    rw [if_neg (by omega), Cert.Chamfer.colMinUpTo_zero]
  | succ n ih =>
    intro hn k
    have h256 : n + 1 < 256 := lt_of_lt_of_eq hn N_0
    have hk8 := k.isLt
    by_cases h64 : (n + 1) % 64 = 0
    · refine (congrFun (outsAt_col_reset m c ⟨n + 1, hn⟩ h64) _).trans ?_
      refine colStep_spec m c (n + 1) hn _ k ?_
      refine (Tile.pay1_apply _).trans ?_
      rw [if_neg (by omega), show (n + 1) / 8 % 8 = 0 by omega, Cert.Chamfer.colMinUpTo_zero]
    · refine (congrFun (outsAt_col_step m c ⟨n + 1, hn⟩ h64) _).trans ?_
      refine colStep_spec m c (n + 1) hn _ k ?_
      refine (ih (Nat.lt_of_succ_lt hn) k).trans ?_
      have htb : tb ⟨n, Nat.lt_of_succ_lt hn⟩ = tb ⟨n + 1, hn⟩ :=
        Fin.ext (by show n / 64 = (n + 1) / 64; omega)
      rw [htb]
      congr 1
      split_ifs <;> omega

theorem col_inv (c : Dev nD) (t : Fin cfg0.N) (k : Fin 8192) :
    (outsAt m c t.val t.isLt).2 (ix3 (0 : Fin 1) (0 : Fin 1) k)
      = Cert.Chamfer.colMinUpTo Tile.two (Xc m c) (Yc m c) (tb t) k
          (if k.val / 1024 ≤ t.val % 8 then t.val / 8 % 8 + 1 else t.val / 8 % 8) :=
  col_inv_nat m c t.val t.isLt k

end Cert.KernelIdeal.Hand

end
-- ==== Proof.FinalCol.lean ====
/-
  The column-minimum array after the sweep.  The column buffer is written back after the last point of each batch,
  when every column tile has met all eight row tiles and it holds the full column minima of the batch; the
  written-back blocks tile the array, so the array ends at the column minima of the clouds.
-/
import proofs.«141924_j17781164606273_1_alg».proof.Proof.Body
import proofs.«141924_j17781164606273_1_alg».proof.Proof.ColInv
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The column-minimum array's block at every point of the sweep: the point's batch on the first axis, the one block on
    the other two. -/
private theorem index3 : ∀ t : Fin grid0.N,
    win0_3.index t (0 : Fin 3) = t.val / 64 ∧ win0_3.index t (1 : Fin 3) = 0 ∧ win0_3.index t (2 : Fin 3) = 0 := by
  decide +kernel

/-- The column-minimum array after the run: entry (b, 0, k) is the least distance from point k of the predictions to
    the ground truth of batch b. -/
theorem final_col (c : Dev nD) :
    (dats (F := Ideal) m 0 c).arrAt 3 cfg0.N
      = (fun i : S4x1x8192.Idx => Cert.Chamfer.colMin Tile.two (Xc m c) (Yc m c) (i 0) (i 2)) := by
  refine (dats (F := Ideal) m 0 c).arrAt_eq_of_cover 3
    (fun i : S4x1x8192.Idx => Cert.Chamfer.colMin Tile.two (Xc m c) (Yc m c) (i 0) (i 2)) ?_ ?_
  · -- A point that writes the block back is the last of its batch: row tile 7, column tile 7, so every entry has met
    -- all eight row tiles and holds the full column minimum; its block sits at (batch, 0, 0) of the array.
    intro t hf
    have h63 : t.val % 64 = 63 := (flush0_3 t).mp hf
    have h256 : t.val < 256 := lt_of_lt_of_eq t.isLt N_0
    obtain ⟨hi0, hi1, hi2⟩ := index3 t
    funext y
    show (cfg0.win 3).cut (grid0.coords t) ((dats m 0 c).after 3 t) y = _
    rw [after0_3, View.read_apply, cast_eq]
    obtain ⟨a, r, b, rfl⟩ : ∃ (a : Fin 1) (r : Fin 1) (b : Fin 8192), y = ix3 a r b :=
      ⟨y 0, y 1, y 2, eq_ix3 (n0 := 1) (n1 := 1) (n2 := 8192) y⟩
    obtain rfl : a = 0 := Subsingleton.elim _ _
    obtain rfl : r = 0 := Subsingleton.elim _ _
    have hb := b.isLt
    have e0 : (((cfg0.win 3).blk t).view.emb (ix3 (0 : Fin 1) (0 : Fin 1) b) 0 : Fin 4) = tb t :=
      Fin.ext (by
        show win0_3.index t (0 : Fin 3) * 1 + 1 * 0 = t.val / 64
        rw [hi0]; omega)
    have e2 : (((cfg0.win 3).blk t).view.emb (ix3 (0 : Fin 1) (0 : Fin 1) b) 2 : Fin 8192) = b :=
      Fin.ext (by
        show win0_3.index t (2 : Fin 3) * 8192 + 1 * b.val = b.val
        rw [hi2]; omega)
    rw [e0, e2]
    refine (col_inv m c t b).trans ?_
    rw [if_pos (by omega), show t.val / 8 % 8 + 1 = 8 by omega, Cert.Chamfer.colMinUpTo_eight]
  · -- Entry (b, 0, k) of the array lies in the block written back after the last point of batch b, at position k.
    intro i
    obtain ⟨bb, z, k, rfl⟩ : ∃ (bb : Fin 4) (z : Fin 1) (k : Fin 8192), i = ix3 bb z k :=
      ⟨i 0, i 1, i 2, eq_ix3 (n0 := 4) (n1 := 1) (n2 := 8192) i⟩
    obtain rfl : z = 0 := Subsingleton.elim _ _
    have hbb := bb.isLt
    have hk := k.isLt
    have ht : 64 * bb.val + 63 < cfg0.N := by rw [show cfg0.N = 256 from N_0]; omega
    refine ⟨⟨64 * bb.val + 63, ht⟩, (flush0_3 _).mpr (by show (64 * bb.val + 63) % 64 = 63; omega), ?_⟩
    obtain ⟨hi0, hi1, hi2⟩ := index3 ⟨64 * bb.val + 63, ht⟩
    have he : ((cfg0.win 3).blk ⟨64 * bb.val + 63, ht⟩).view.emb (ix3 (0 : Fin 1) (0 : Fin 1) k)
        = (ix3 bb (0 : Fin 1) k : S4x1x8192.Idx) := by
      funext a
      apply Fin.ext
      match a with
      | ⟨0, _⟩ =>
        show win0_3.index ⟨64 * bb.val + 63, ht⟩ (0 : Fin 3) * 1 + 1 * 0 = bb.val
        rw [hi0]; show (64 * bb.val + 63) / 64 * 1 + 1 * 0 = bb.val; omega
      | ⟨1, _⟩ =>
        show win0_3.index ⟨64 * bb.val + 63, ht⟩ (1 : Fin 3) * 1 + 1 * 0 = 0
        rw [hi1]
      | ⟨2, _⟩ =>
        show win0_3.index ⟨64 * bb.val + 63, ht⟩ (2 : Fin 3) * 8192 + 1 * k.val = k.val
        rw [hi2]; omega
    rw [← he]
    exact View.emb_mem_set _ _

end Cert.KernelIdeal.Hand

end
-- ==== Proof.KernelRun.lean ====
/-
  The kernel program's result.  After the region the two output arrays hold the row minima and the column minima of
  the clouds; the host's lines then sum each array entirely (from zero) and add the two totals, column minima first.
  A total over an array of shape [4, 1, 8192] or [4, 8192, 1] is the sum over batch and point of its entries, so the
  result is the chamfer loss of the two clouds.
-/
import proofs.«141924_j17781164606273_1_alg».proof.Proof.FinalRow
import proofs.«141924_j17781164606273_1_alg».proof.Proof.FinalCol
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The total of an array indexed by (batch, point, one unit axis) is the sum over batch and point. -/
theorem sum_b_n_1 (f : Fin 4 → Fin 8192 → EReal) :
    (∑ i : S4x8192x1.Idx, f (i 0) (i 1)) = ∑ p : Fin 4 × Fin 8192, f p.1 p.2 := by
  refine Fintype.sum_equiv
    { toFun := fun i => (i 0, i 1), invFun := fun p => ix3 p.1 p.2 (0 : Fin 1),
      left_inv := fun i => funext fun a => by
        match a with
        | ⟨0, _⟩ => rfl
        | ⟨1, _⟩ => rfl
        | ⟨2, _⟩ => exact Subsingleton.elim (α := Fin 1) _ _,
      right_inv := fun p => rfl } _ _ (fun i => rfl)

/-- The total of an array indexed by (batch, one unit axis, point) is the sum over batch and point. -/
theorem sum_b_1_n (f : Fin 4 → Fin 8192 → EReal) :
    (∑ i : S4x1x8192.Idx, f (i 0) (i 2)) = ∑ p : Fin 4 × Fin 8192, f p.1 p.2 := by
  refine Fintype.sum_equiv
    { toFun := fun i => (i 0, i 2), invFun := fun p => ix3 p.1 (0 : Fin 1) p.2,
      left_inv := fun i => funext fun a => by
        match a with
        | ⟨0, _⟩ => rfl
        | ⟨1, _⟩ => exact Subsingleton.elim (α := Fin 1) _ _
        | ⟨2, _⟩ => rfl,
      right_inv := fun p => rfl } _ _ (fun i => rfl)

/-- The host's total of a whole array, from zero, over the extended reals: the plain sum of its entries. -/
theorem total_col (x : (⟨S4x1x8192, .f32⟩ : BufTy).Contents (Elt Ideal)) (i : S_.Idx) :
    Host.reduceAdd (F := Ideal) x (constant S_ .f32 0x00000000#32) Facts₀.reducesTo_S4x1x8192_S_d0_1_2 Facts₀.h_S_ i = ∑ j : S4x1x8192.Idx, x j := by
  simp only [Host.reduceAdd, Ideal.hostReduceAdd_def]
  rw [Ideal.hostReduceAdd_total Facts₀.reducesTo_S4x1x8192_S_d0_1_2 (fun b => b.elim0) x _ i]
  show Ideal.ofBits .f32 0x00000000#32 + _ = _
  rw [Ideal.ofBits_zero_f32, zero_add]

theorem total_row (x : (⟨S4x8192x1, .f32⟩ : BufTy).Contents (Elt Ideal)) (i : S_.Idx) :
    Host.reduceAdd (F := Ideal) x (constant S_ .f32 0x00000000#32) Facts₀.reducesTo_S4x8192x1_S_d0_1_2 Facts₀.h_S_ i = ∑ j : S4x8192x1.Idx, x j := by
  simp only [Host.reduceAdd, Ideal.hostReduceAdd_def]
  rw [Ideal.hostReduceAdd_total Facts₀.reducesTo_S4x8192x1_S_d0_1_2 (fun b => b.elim0) x _ i]
  show Ideal.ofBits .f32 0x00000000#32 + _ = _
  rw [Ideal.ofBits_zero_f32, zero_add]

/-- What the host's lines after the region leave in the result buffer: the chamfer loss of the two clouds. -/
theorem tail_eq (c : Dev nD) :
    Pipeline.afterTail₀ cfgs (dats (F := Ideal) m) 0 (V0 m) [hostOps1] c main_v3
      = fun _ => Cert.Chamfer.loss Tile.two (Xc m c) (Yc m c) := by
  unfold Pipeline.afterTail₀
  show StableHlo.after hostOps1 _ (Proc.devRef .tc main_v3) = _
  after_results
  rw [(Pipeline.withArrays_arr spec0 launch0.win.arr_inj c _ _ 3).trans (final_col m c),
    (Pipeline.withArrays_arr spec0 launch0.win.arr_inj c _ _ 2).trans (final_row m c)]
  funext i
  show _ + _ = _
  rw [total_col, total_row, sum_b_1_n (fun b k => Cert.Chamfer.colMin Tile.two (Xc m c) (Yc m c) b k),
    sum_b_n_1 (fun b n => Cert.Chamfer.rowMin Tile.two (Xc m c) (Yc m c) b n)]
  rfl

/-- The kernel program runs, its result is the chamfer loss of the clouds it was given, and its arguments end
    unchanged. -/
theorem run_value : θ_run defs (onTc (τ := τ) (main (F := Ideal))) ⟨m, fun _ => 0, ρ⟩ (fun r => ∀ c : Dev nD,
      r.2.mem ((c.tc : Thread nD τ).loc main_v3) = (fun _ => Cert.Chamfer.loss Tile.two (Xc m c) (Yc m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (by decide)).trans (tail_eq m c),
       ((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c)))⟩)
    (run_main (F := Ideal) m ρ)

end Cert.KernelIdeal.Hand

end
-- ==== Proof.RefValue.lean ====
/-
  The reference program computes the chamfer loss: its distance tensor is the expanded squared distance entry by
  entry, its two minimum reductions are the column and the row infima, and its result is the sum of the two totals.
-/
import proofs.«141924_j17781164606273_1_alg».proof.Proof.Gen.ReferenceIdeal.Run
import proofs.«141924_j17781164606273_1_alg».proof.Proof.Gen.ReferenceIdeal.Read
import proofs.«141924_j17781164606273_1_alg».proof.Proof.Spec
import Idealize.ShloMosaic.Lib.ValueIdx
import Idealize.ShloMosaic.PureOps.Ideal.Laws
import Idealize.ShloMosaic.PureOps.Reduce

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! The index maps of the broadcasts, the sums over the three coordinates and the contraction, composed at (b, n, k),
    land on point n of the first cloud and point k of the second, coordinate d. -/

private theorem idxX (b : Fin 4) (n k : Fin 8192) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

private theorem idxY (b : Fin 4) (n k : Fin 8192) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

private theorem idxL (b : Fin 4) (n k : Fin 8192) (d : Fin 3) : lidx_main_v4 (ix3 b n k) d = ix3 b n d :=
  funext fun a => Fin.ext (by match a with | ⟨0, _⟩ => rfl | ⟨1, _⟩ => rfl | ⟨2, _⟩ => rfl)

private theorem idxR (b : Fin 4) (n k : Fin 8192) (d : Fin 3) : ridx_main_v4 (ix3 b n k) d = ix3 b k d :=
  funext fun a => Fin.ext (by match a with | ⟨0, _⟩ => rfl | ⟨1, _⟩ => rfl | ⟨2, _⟩ => rfl)

/-- The reference's distance tensor at (b, n, k) is the expanded squared distance. -/
private theorem v12_entry (x0 x1 : (⟨S4x8192x3, .f32⟩ : BufTy).Contents (Elt Ideal)) (b : Fin 4) (n k : Fin 8192) :
    val_main_v12 (F := Ideal) x0 x1 (ix3 b n k)
      = Cert.Chamfer.dist (Ideal.ofBits .f32 0x40000000#32) (fun b n d => x1 (ix3 b n d)) (fun b n d => x0 (ix3 b n d)) b n k := by
  rw [val_main_v12_apply, val_main_v9_apply, val_main_v11_apply, val_main_v7_apply, val_main_v8_apply, val_main_v5_apply,
    val_main_v6_apply, val_main_v1_apply, val_main_v3_apply, val_main_v10_apply, val_main_cst_1_apply, val_main_v4_apply,
    val_main_cst_apply, val_main_cst_0_apply]
  simp only [val_main_v0_apply, val_main_v2_apply, idxX, idxY, idxL, idxR, Ideal.subf_def, Ideal.addf_def, Ideal.mulf_def,
    Ideal.ofBits_def, Ideal.ofBits_zero_f32, zero_add]
  rfl

/-- The pattern of plus infinity denotes the top element. -/
private theorem inf_eq_top : Ideal.ofBits .f32 0x7F800000#32 = (⊤ : EReal) := by simp [Ideal.ofBits, Ideal.ieee]

/-- A fold by minimum from top is the infimum. -/
private theorem fold_min_top {ι : Type} [Fintype ι] (f : ι → EReal) :
    (Finset.univ : Finset ι).fold min (⊤ : EReal) f = Finset.univ.inf f :=
  eq_of_forall_le_iff fun c => by
    rw [Finset.le_fold_min, Finset.le_inf_iff]
    exact ⟨fun h => h.2, fun h => ⟨le_top, h⟩⟩

/-- The minimum over the second axis (the points of the first cloud), read at (b, k). -/
private theorem hostMin_axis1 (y : FVec Ideal S4x8192x8192 .f32) (b : Fin 4) (k : Fin 8192) :
    Host.reduce (FloatOps.minimumf (F := Ideal) (φ := .f32)) y (val_main_cst_2 (F := Ideal)) reducesTo_S4x8192x8192_S4x8192_d1 h_S_ (ix2 b k)
      = Finset.univ.inf fun n : Fin 8192 => y (ix3 b n k) := by
  have hr : S4x8192x8192.Reduces [1] S4x8192 := by decide
  rw [Host.reduce_eq_fold_single (FloatOps.minimumf (F := Ideal) (φ := .f32)) y _ reducesTo_S4x8192x8192_S4x8192_d1 hr h_S_]
  have hf : (y ∘ hr.lift (ix2 b k)) = fun n : Fin 8192 => y (ix3 b n k) :=
    funext fun n => congrArg y (funext fun c => Fin.ext (by match c with | ⟨0, _⟩ => rfl | ⟨1, _⟩ => rfl | ⟨2, _⟩ => rfl))
  refine Eq.trans ?_ (fold_min_top fun n : Fin 8192 => y (ix3 b n k))
  rw [val_main_cst_2_apply, Ideal.ofBits_def, inf_eq_top]
  exact congrArg (fun f => Finset.fold min (⊤ : EReal) f (Finset.univ : Finset (Fin 8192))) hf

/-- The minimum over the third axis (the points of the second cloud), read at (b, n). -/
private theorem hostMin_axis2 (y : FVec Ideal S4x8192x8192 .f32) (b : Fin 4) (n : Fin 8192) :
    Host.reduce (FloatOps.minimumf (F := Ideal) (φ := .f32)) y (val_main_cst_4 (F := Ideal)) reducesTo_S4x8192x8192_S4x8192_d2 h_S_ (ix2 b n)
      = Finset.univ.inf fun k : Fin 8192 => y (ix3 b n k) := by
  have hr : S4x8192x8192.Reduces [2] S4x8192 := by decide
  rw [Host.reduce_eq_fold_single (FloatOps.minimumf (F := Ideal) (φ := .f32)) y _ reducesTo_S4x8192x8192_S4x8192_d2 hr h_S_]
  have hf : (y ∘ hr.lift (ix2 b n)) = fun k : Fin 8192 => y (ix3 b n k) :=
    funext fun k => congrArg y (funext fun c => Fin.ext (by match c with | ⟨0, _⟩ => rfl | ⟨1, _⟩ => rfl | ⟨2, _⟩ => rfl))
  refine Eq.trans ?_ (fold_min_top fun k : Fin 8192 => y (ix3 b n k))
  rw [val_main_cst_4_apply, Ideal.ofBits_def, inf_eq_top]
  exact congrArg (fun f => Finset.fold min (⊤ : EReal) f (Finset.univ : Finset (Fin 8192))) hf

/-- The first minimum reduction at (b, k) is the column minimum of point k. -/
private theorem v13_entry (x0 x1 : (⟨S4x8192x3, .f32⟩ : BufTy).Contents (Elt Ideal)) (b : Fin 4) (k : Fin 8192) :
    val_main_v13 (F := Ideal) x0 x1 (ix2 b k)
      = Cert.Chamfer.colMin (Ideal.ofBits .f32 0x40000000#32) (fun b n d => x1 (ix3 b n d)) (fun b n d => x0 (ix3 b n d)) b k := by
  unfold val_main_v13 Cert.Chamfer.colMin
  have h12 := v12_entry x0 x1
  generalize val_main_v12 (F := Ideal) x0 x1 = y at h12 ⊢
  exact (hostMin_axis1 y b k).trans (congrArg (Finset.univ : Finset (Fin 8192)).inf (funext fun n => h12 b n k))

/-- The second minimum reduction at (b, n) is the row minimum of point n. -/
private theorem v15_entry (x0 x1 : (⟨S4x8192x3, .f32⟩ : BufTy).Contents (Elt Ideal)) (b : Fin 4) (n : Fin 8192) :
    val_main_v15 (F := Ideal) x0 x1 (ix2 b n)
      = Cert.Chamfer.rowMin (Ideal.ofBits .f32 0x40000000#32) (fun b n d => x1 (ix3 b n d)) (fun b n d => x0 (ix3 b n d)) b n := by
  unfold val_main_v15 Cert.Chamfer.rowMin
  have h12 := v12_entry x0 x1
  generalize val_main_v12 (F := Ideal) x0 x1 = y at h12 ⊢
  exact (hostMin_axis2 y b n).trans (congrArg (Finset.univ : Finset (Fin 8192)).inf (funext fun k => h12 b n k))

/-- The reference's result, as a function of its two arguments (first the predictions, second the ground truth), is
    the chamfer loss of the clouds read by coordinates. -/
theorem result_eq (x0 x1 : (⟨S4x8192x3, .f32⟩ : BufTy).Contents (Elt Ideal)) :
    val_main_v17 (F := Ideal) x0 x1
      = fun _ => Cert.Chamfer.loss (Ideal.ofBits .f32 0x40000000#32) (fun b n d => x1 (ix3 b n d)) (fun b n d => x0 (ix3 b n d)) := by
  funext i
  rw [val_main_v17_apply, val_main_v14_apply, val_main_v16_apply, val_main_cst_3_apply, val_main_cst_5_apply]
  simp only [Ideal.addf_def, Ideal.ofBits_def, Ideal.ofBits_zero_f32, zero_add]
  unfold Cert.Chamfer.loss
  refine congrArg₂ (· + ·) ?_ ?_
  · exact Fintype.sum_equiv (idxEquiv2 (n0 := 4) (n1 := 8192)) _ _ fun j =>
      (congrArg (val_main_v13 (F := Ideal) x0 x1) (eq_ix2 j)).trans (v13_entry x0 x1 (j 0) (j 1))
  · exact Fintype.sum_equiv (idxEquiv2 (n0 := 4) (n1 := 8192)) _ _ fun j =>
      (congrArg (val_main_v15 (F := Ideal) x0 x1) (eq_ix2 j)).trans (v15_entry x0 x1 (j 0) (j 1))

end Cert.ReferenceIdeal.RefValue

end
-- ==== Proof.lean ====
/-
  The chamfer loss kernel against its reference, over the extended reals.
  Both programs form, for every batch b, the expanded squared distances  |x_n|^2 + |y_k|^2 - 2 <x_n, y_k>  between the
  8192 ground-truth points x and the 8192 predicted points y, take for every y_k the least distance to an x_n and for
  every x_n the least distance to a y_k, and add the total of the first to the total of the second.  The reference
  does so on whole tensors.  The kernel sweeps the 8 x 8 tiles of 1024 x 1024 distances of each batch, keeping the
  running row minima of the current row of tiles and the running column minima of the batch in two buffers that are
  reset to +infinity when a row of tiles, respectively a batch, starts; a minimum over eight tiles taken tile by tile
  is the minimum over all 8192 points, so after the sweep the two output arrays hold exactly the reference's two
  minimum tensors, and the host's totals and their sum are the same terms on both sides.  No law that needs
  finiteness is used: the two sides are the same expression entry by entry, and minima and finite sums may be
  regrouped freely on the extended reals.
  The three frames: each kernel program's sweep is run point by point (the two conditionals decided by the point's
  position), the argument arrays only read; the reference is a straight line of host operations.
-/
import proofs.«141924_j17781164606273_1_alg».proof.Defs
import proofs.«141924_j17781164606273_1_alg».proof.Proof.Gen.Kernel
import proofs.«141924_j17781164606273_1_alg».proof.Proof.Gen.KernelIdeal
import proofs.«141924_j17781164606273_1_alg».proof.Proof.Gen.ReferenceIdeal
import proofs.«141924_j17781164606273_1_alg».proof.Proof.Gen.Pre_finite_inputs
import proofs.«141924_j17781164606273_1_alg».proof.Proof.BodyK
import proofs.«141924_j17781164606273_1_alg».proof.Proof.KernelRun
import proofs.«141924_j17781164606273_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the two clouds, both programs end with the chamfer loss of those clouds. -/
theorem algebraic : Cert.algebraic_KernelIdeal_ReferenceIdeal := by
  intro m ρ m' ρ' _ hagree
  refine ⟨fun c => (fun _ => Cert.Chamfer.loss Cert.KernelIdeal.Tile.two (Cert.KernelIdeal.Hand.Xc m c) (Cert.KernelIdeal.Hand.Yc m c)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
